-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256x7x7 : Shape := ⟨4, ![2048, 256, 7, 7]⟩
abbrev S2048x49x49 : Shape := ⟨3, ![2048, 49, 49]⟩
abbrev S_ : Shape := ⟨0, ![]⟩

class Facts : Prop where
  bcast_S_S2048x256x7x7 : S_.BroadcastsInDim S2048x256x7x7 (![] : Fin 0 → Fin S2048x256x7x7.rank)
  reducesTo_S2048x256x7x7_S_d0_1_2_3 : S2048x256x7x7.ReducesTo [0, 1, 2, 3] S_
  h_S_ : 0 < S_.numel

variable [Facts]

def fn {F : FTy → Type} [FloatOps F] (main_arg0 : FVec F S2048x256x7x7 .f32) (main_arg1 : FVec F S2048x256x7x7 .f32) (main_arg2 : IVec S2048x49x49 32) : IVec S_ 1 :=
  let main_v0 : FVec F S2048x256x7x7 .f32 := Host.absf main_arg0
  let main_cst : FVec F S_ .f32 := constant S_ .f32 0x7F800000#32
  let main_v1 : FVec F S2048x256x7x7 .f32 := broadcastInDim S2048x256x7x7 ![] bcast_S_S2048x256x7x7 main_cst
  let main_v2 : IVec S2048x256x7x7 1 := cmpf .olt main_v0 main_v1
  let main_c : IVec S_ 1 := constantI S_ 1 1#1
  let main_v3 : IVec S_ 1 := (fun x v => Host.reduce IntOp.andi x v reducesTo_S2048x256x7x7_S_d0_1_2_3 h_S_) main_v2 main_c
  let main_v4 : FVec F S2048x256x7x7 .f32 := Host.absf main_arg1
  let main_cst_0 : FVec F S_ .f32 := constant S_ .f32 0x7F800000#32
  let main_v5 : FVec F S2048x256x7x7 .f32 := broadcastInDim S2048x256x7x7 ![] bcast_S_S2048x256x7x7 main_cst_0
  let main_v6 : IVec S2048x256x7x7 1 := cmpf .olt main_v4 main_v5
  let main_c_1 : IVec S_ 1 := constantI S_ 1 1#1
  let main_v7 : IVec S_ 1 := (fun x v => Host.reduce IntOp.andi x v reducesTo_S2048x256x7x7_S_d0_1_2_3 h_S_) main_v6 main_c_1
  let main_v8 : IVec S_ 1 := andi main_v3 main_v7
  main_v8
-- ==== Kernel.lean ====
abbrev S2048x256x7x7 : Shape := ⟨4, ![2048, 256, 7, 7]⟩
abbrev S2048x49x49 : Shape := ⟨3, ![2048, 49, 49]⟩
abbrev S2048x256x49 : Shape := ⟨3, ![2048, 256, 49]⟩
abbrev S2x8x128 : Shape := ⟨3, ![2, 8, 128]⟩
abbrev S32x256x49 : Shape := ⟨3, ![32, 256, 49]⟩
abbrev S32x49x49 : Shape := ⟨3, ![32, 49, 49]⟩
abbrev S1x8x128 : Shape := ⟨3, ![1, 8, 128]⟩
abbrev S1x1 : Shape := ⟨2, ![1, 1]⟩
abbrev S32x49 : Shape := ⟨2, ![32, 49]⟩
abbrev S32x49x1 : Shape := ⟨3, ![32, 49, 1]⟩
abbrev S32x1x49 : Shape := ⟨3, ![32, 1, 49]⟩
abbrev S32 : Shape := ⟨1, ![32]⟩
abbrev S1x32 : Shape := ⟨2, ![1, 32]⟩
abbrev S1 : Shape := ⟨1, ![1]⟩
abbrev S2x1x1 : Shape := ⟨3, ![2, 1, 1]⟩
abbrev S2 : Shape := ⟨1, ![2]⟩
abbrev S_ : Shape := ⟨0, ![]⟩

abbrev nBuf : Space → Nat
  | .hbm => 17
  | .vmem => 12
  | .smem => 0
  | _ => 0

abbrev bufTy : (tb : Table) → Fin (tcTables nBuf tb) → BufTy
  | .hbm, ⟨0, _⟩ => ⟨S2048x256x7x7, .f32⟩
  | .hbm, ⟨1, _⟩ => ⟨S2048x256x7x7, .f32⟩
  | .hbm, ⟨2, _⟩ => ⟨S2048x49x49, .i32⟩
  | .hbm, ⟨3, _⟩ => ⟨S2048x256x49, .f32⟩
  | .hbm, ⟨4, _⟩ => ⟨S2048x256x49, .f32⟩
  | .hbm, ⟨5, _⟩ => ⟨S2x8x128, .f32⟩
  | .hbm, ⟨6, _⟩ => ⟨S2x8x128, .f32⟩
  | .hbm, ⟨7, _⟩ => ⟨S2x1x1, .f32⟩
  | .hbm, ⟨8, _⟩ => ⟨S2, .f32⟩
  | .hbm, ⟨9, _⟩ => ⟨S_, .f32⟩
  | .hbm, ⟨10, _⟩ => ⟨S_, .f32⟩
  | .hbm, ⟨11, _⟩ => ⟨S2x1x1, .f32⟩
  | .hbm, ⟨12, _⟩ => ⟨S2, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S32x256x49, .f32⟩
  | .local _ .vmem, ⟨1, _⟩ => ⟨S32x256x49, .f32⟩
  | .local _ .vmem, ⟨2, _⟩ => ⟨S32x256x49, .f32⟩
  | .local _ .vmem, ⟨3, _⟩ => ⟨S32x256x49, .f32⟩
  | .local _ .vmem, ⟨4, _⟩ => ⟨S32x49x49, .i32⟩
  | .local _ .vmem, ⟨5, _⟩ => ⟨S32x49x49, .i32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x1, .f32⟩
  | .local _ .vmem, ⟨11, _⟩ => ⟨S1x1, .f32⟩
  | _, _ => ⟨S2048x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v57 : BitVec 1 := Scalar.cmpi .eq arg1 c31_i32
  let v58 : BitVec 32 := Scalar.extui v57
  let c0_i32_29 : BitVec 32 := 0#32
  let v59 : BitVec 1 := Scalar.cmpi .ne v58 c0_i32_29
  v59

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256x49 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x49x49 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2048x256x7x7_S2048x256x49 : S2048x256x7x7.ShapeCasts S2048x256x49
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S32x256x49_S32x256x49_0_0_0 : ∀ a, (![0, 0, 0] : Fin 3 → Nat) a + S32x256x49.size a ≤ S32x256x49.size a
  h_S32x256x49 : 0 < S32x256x49.numel
  shapeCasts_S32x256x49_S32x256x49 : S32x256x49.ShapeCasts S32x256x49
  inb_S32x49x49_S32x49x49_0_0_0 : ∀ a, (![0, 0, 0] : Fin 3 → Nat) a + S32x49x49.size a ≤ S32x49x49.size a
  h_S32x49x49 : 0 < S32x49x49.numel
  bitsLt_bf16_f32 : FTy.bits .bf16 < FTy.bits .f32
  reduces_S32x256x49_S32x49 : S32x256x49.Reduces [1] S32x49
  shapeCasts_S32x49_S32x49x1 : S32x49.ShapeCasts S32x49x1
  shapeCasts_S32x49_S32x1x49 : S32x49.ShapeCasts S32x1x49
  broadcasts_S32x49x1_S32x49x49 : S32x49x1.Broadcasts S32x49x49
  broadcasts_S32x1x49_S32x49x49 : S32x1x49.Broadcasts S32x49x49
  reduces_S32x49x49_S32x49 : S32x49x49.Reduces [2] S32x49
  reduces_S32x49_S32 : S32x49.Reduces [1] S32
  shapeCasts_S32_S1x32 : S32.ShapeCasts S1x32
  reduces_S1x32_S1 : S1x32.Reduces [1] S1
  shapeCasts_S1_S1x1 : S1.ShapeCasts S1x1
  inpos_S1x1_p0_0 : ∀ a, (![0, 0] : Fin 2 → Nat) a < S1x1.size a
  natLt_1_32 : 1 < 32
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  dot_S32x256x49_S32x256x49_S32x49x49_1_1_2_2_0_0_wf : DotDims.WF S32x256x49 S32x256x49 S32x49x49 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x49.size a ≤ S2048x256x49.size a
  hwx0_0 : ∀ i : grid0.Coords, EltTy.bits .f32 = 32 ∨ (Rect.block (s := S2048x256x49) S32x256x49.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256x49.size a ≤ S2048x256x49.size a
  hwx0_1 : ∀ i : grid0.Coords, EltTy.bits .f32 = 32 ∨ (Rect.block (s := S2048x256x49) S32x256x49.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x49x49.size a ≤ S2048x49x49.size a
  hwx0_2 : ∀ i : grid0.Coords, EltTy.bits .i32 = 32 ∨ (Rect.block (s := S2048x49x49) S32x49x49.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

def dot_S32x256x49_S32x256x49_S32x49x49_1_1_2_2_0_0 : DotDims S32x256x49 S32x256x49 S32x49x49 where
  lhsContracting := [1]
  rhsContracting := [1]
  lhsNonContracting := [2]
  rhsNonContracting := [2]
  lhsBatch := [0]
  rhsBatch := [0]
  wf := dot_S32x256x49_S32x256x49_S32x49x49_1_1_2_2_0_0_wf

abbrev win0_0 : Pipeline.Window sig grid0 :=
  Pipeline.Window.ofSpec (Memref.whole main_v0) S32x256x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x256x49.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x49x49.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x256x7x7 : Shape := ⟨4, ![2048, 256, 7, 7]⟩
abbrev S2048x49x49 : Shape := ⟨3, ![2048, 49, 49]⟩
abbrev S2048x256x49 : Shape := ⟨3, ![2048, 256, 49]⟩
abbrev S_ : Shape := ⟨0, ![]⟩
abbrev S2048x49 : Shape := ⟨2, ![2048, 49]⟩
abbrev S2048x49x1 : Shape := ⟨3, ![2048, 49, 1]⟩
abbrev S2048x1x49 : Shape := ⟨3, ![2048, 1, 49]⟩

abbrev nBuf : Space → Nat
  | .hbm => 42
  | .vmem => 0
  | .smem => 0
  | _ => 0

abbrev bufTy : (tb : Table) → Fin (tcTables nBuf tb) → BufTy
  | .hbm, ⟨0, _⟩ => ⟨S2048x256x7x7, .f32⟩
  | .hbm, ⟨1, _⟩ => ⟨S2048x256x7x7, .f32⟩
  | .hbm, ⟨2, _⟩ => ⟨S2048x49x49, .i32⟩
  | .hbm, ⟨3, _⟩ => ⟨S2048x256x49, .f32⟩
  | .hbm, ⟨4, _⟩ => ⟨S2048x256x49, .f32⟩
  | .hbm, ⟨5, _⟩ => ⟨S2048x49x49, .f32⟩
  | .hbm, ⟨6, _⟩ => ⟨S2048x256x49, .f32⟩
  | .hbm, ⟨7, _⟩ => ⟨S_, .f32⟩
  | .hbm, ⟨8, _⟩ => ⟨S2048x49, .f32⟩
  | .hbm, ⟨9, _⟩ => ⟨S2048x49, .f32⟩
  | .hbm, ⟨10, _⟩ => ⟨S_, .f32⟩
  | .hbm, ⟨11, _⟩ => ⟨S2048x49, .f32⟩
  | .hbm, ⟨12, _⟩ => ⟨S2048x49, .f32⟩
  | .hbm, ⟨13, _⟩ => ⟨S2048x256x49, .f32⟩
  | .hbm, ⟨14, _⟩ => ⟨S_, .f32⟩
  | .hbm, ⟨15, _⟩ => ⟨S2048x49, .f32⟩
  | .hbm, ⟨16, _⟩ => ⟨S2048x49, .f32⟩
  | .hbm, ⟨17, _⟩ => ⟨S_, .f32⟩
  | .hbm, ⟨18, _⟩ => ⟨S2048x49, .f32⟩
  | .hbm, ⟨19, _⟩ => ⟨S2048x49, .f32⟩
  | .hbm, ⟨20, _⟩ => ⟨S2048x49x1, .f32⟩
  | .hbm, ⟨21, _⟩ => ⟨S2048x1x49, .f32⟩
  | .hbm, ⟨22, _⟩ => ⟨S2048x49x49, .f32⟩
  | .hbm, ⟨23, _⟩ => ⟨S2048x49x49, .f32⟩
  | .hbm, ⟨24, _⟩ => ⟨S2048x49x49, .f32⟩
  | .hbm, ⟨25, _⟩ => ⟨S2048x49x49, .f32⟩
  | .hbm, ⟨26, _⟩ => ⟨S_, .i32⟩
  | .hbm, ⟨27, _⟩ => ⟨S2048x49x49, .i32⟩
  | .hbm, ⟨28, _⟩ => ⟨S2048x49x49, .i1⟩
  | .hbm, ⟨29, _⟩ => ⟨S2048x49x49, .i1⟩
  | .hbm, ⟨30, _⟩ => ⟨S_, .f32⟩
  | .hbm, ⟨31, _⟩ => ⟨S_, .f32⟩
  | .hbm, ⟨32, _⟩ => ⟨S2048x49x49, .f32⟩
  | .hbm, ⟨33, _⟩ => ⟨S2048x49x49, .f32⟩
  | .hbm, ⟨34, _⟩ => ⟨S_, .f32⟩
  | .hbm, ⟨35, _⟩ => ⟨S_, .f32⟩
  | .hbm, ⟨36, _⟩ => ⟨S2048x49x49, .i32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S_, .f32⟩
  | .hbm, ⟨41, _⟩ => ⟨S_, .f32⟩
  | _, _ => ⟨S2048x256x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_call2_v0 : Ref sig .tc := ⟨.hbm, 31, rfl⟩
abbrev main_call2_v1 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]

class Facts₀ : Prop where
  shapeCasts_S2048x256x7x7_S2048x256x49 : S2048x256x7x7.ShapeCasts S2048x256x49
  reducesTo_S2048x256x49_S2048x49_d1 : S2048x256x49.ReducesTo [1] S2048x49
  h_S_ : 0 < S_.numel
  bcast_S_S2048x49 : S_.BroadcastsInDim S2048x49 (![] : Fin 0 → Fin S2048x49.rank)
  bcast_S2048x49_S2048x49x1_0_1 : S2048x49.BroadcastsInDim S2048x49x1 (![0, 1] : Fin 2 → Fin S2048x49x1.rank)
  bcast_S2048x49_S2048x1x49_0_2 : S2048x49.BroadcastsInDim S2048x1x49 (![0, 2] : Fin 2 → Fin S2048x1x49.rank)
  bcast_S2048x49x1_S2048x49x49_0_1_2 : S2048x49x1.BroadcastsInDim S2048x49x49 (![0, 1, 2] : Fin 3 → Fin S2048x49x49.rank)
  bcast_S2048x1x49_S2048x49x49_0_1_2 : S2048x1x49.BroadcastsInDim S2048x49x49 (![0, 1, 2] : Fin 3 → Fin S2048x49x49.rank)
  bcast_S_S2048x49x49 : S_.BroadcastsInDim S2048x49x49 (![] : Fin 0 → Fin S2048x49x49.rank)
  reducesTo_S2048x49x49_S_d0_1_2 : S2048x49x49.ReducesTo [0, 1, 2] S_
  natLt_1_32 : 1 < 32
  dot_S2048x256x49_S2048x256x49_S2048x49x49_1_1_2_2_0_0_wf : DotDims.WF S2048x256x49 S2048x256x49 S2048x49x49 [1] [1] [2] [2] [0] [0]

variable [Facts₀]

def dot_S2048x256x49_S2048x256x49_S2048x49x49_1_1_2_2_0_0 : DotDims S2048x256x49 S2048x256x49 S2048x49x49 where
  lhsContracting := [1]
  rhsContracting := [1]
  lhsNonContracting := [2]
  rhsNonContracting := [2]
  lhsBatch := [0]
  rhsBatch := [0]
  wf := dot_S2048x256x49_S2048x256x49_S2048x49x49_1_1_2_2_0_0_wf

class Facts : Prop extends Facts₀ where

variable [Facts]
-- ==== Proof.Spec.lean ====
/-
  What both programs compute, as one function of the two feature arrays (reshaped to [2048, 256, 49]) and the
  integer mask [2048, 49, 49], over the extended reals.

  For a batch b and positions p, q the masked cosine similarity is
      c(b,p,q) = ( sum_k B[b,k,p] * M[b,k,q] ) / ( max(sqrt(sum_k B[b,k,p]^2), e) * max(sqrt(sum_k M[b,k,q]^2), e) )
  where the mask word A[b,p,q] is nonzero, and 0 elsewhere; e is the f32 nearest 1e-6, the same word in both programs.
  The result is  -( (sum_{b,p,q} c(b,p,q)) / (number of nonzero mask words) ).

  Both sums are sums in a commutative monoid (the extended reals under +), so any grouping of the index set gives the
  same value: the regrouping lemmas at the end are all the algebra the certificate needs.
-/
import Idealize.ShloMosaic.PureOps.Ideal
import Idealize.ShloMosaic.PureOps.Ideal.Laws
import Idealize.ShloMosaic.Lib.ValueIdx

noncomputable section

open scoped BigOperators

namespace Cert.MaskedCos

open Idealize.ShloMosaic Idealize.ShloMosaic.ValueIdx

/-- The lower bound put under each norm: the f32 word nearest 1e-6. -/
abbrev normFloor : EReal := Ideal.ofBits .f32 0x358637BD#32

/-- One entry of the masked similarity matrix: `u`, `v` are the two channel vectors (256 channels), `a` the mask word. -/
def cosTerm (u v : Fin 256 → EReal) (a : BitVec 32) : EReal :=
  Scalar.select (IntOp.cmpi .ne a 0#32)
    (Ideal.div (∑ k : Fin 256, u k * v k)
      (max (Ideal.sqrt (∑ k : Fin 256, u k * u k)) normFloor * max (Ideal.sqrt (∑ k : Fin 256, v k * v k)) normFloor))
    (Ideal.ofBits .f32 0x00000000#32)

/-- The mask word as a number: 1 where it is nonzero, 0 where it is zero. -/
def maskTerm (a : BitVec 32) : EReal := ((((IntOp.cmpi .ne a 0#32).setWidth 32).toInt : ℝ) : EReal)

/-- One batch's share of the numerator: the sum of its 49 x 49 masked similarities. -/
def numRow (u v : Fin 256 → Fin 49 → EReal) (a : Fin 49 → Fin 49 → BitVec 32) : EReal :=
  ∑ p : Fin 49, ∑ q : Fin 49, cosTerm (fun k => u k p) (fun k => v k q) (a p q)

/-- One batch's share of the denominator: how many of its 49 x 49 mask words are nonzero. -/
def denRow (a : Fin 49 → Fin 49 → BitVec 32) : EReal := ∑ p : Fin 49, ∑ q : Fin 49, maskTerm (a p q)

/-- The numerator: all 2048 batches. -/
def num (B M : (⟨3, ![2048, 256, 49]⟩ : Shape).Idx → EReal) (A : (⟨3, ![2048, 49, 49]⟩ : Shape).Idx → BitVec 32) : EReal :=
  ∑ b : Fin 2048, numRow (fun k p => B (ix3 b k p)) (fun k q => M (ix3 b k q)) (fun p q => A (ix3 b p q))

/-- The denominator: the number of nonzero mask words. -/
def den (A : (⟨3, ![2048, 49, 49]⟩ : Shape).Idx → BitVec 32) : EReal :=
  ∑ b : Fin 2048, denRow (fun p q => A (ix3 b p q))

/-- The result both programs return. -/
def loss (B M : (⟨3, ![2048, 256, 49]⟩ : Shape).Idx → EReal) (A : (⟨3, ![2048, 49, 49]⟩ : Shape).Idx → BitVec 32) : EReal :=
  -(Ideal.div (num B M A) (den A))

/-! ## Regrouping sums -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
theorem sum_idx3 {N : Type*} [AddCommMonoid N] {n0 n1 n2 : Nat} (f : (⟨3, ![n0, n1, n2]⟩ : Shape).Idx → N) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- `a` consecutive runs of length `b` make up the first `a * b` naturals. -/
theorem sum_range_runs {N : Type*} [AddCommMonoid N] (f : ℕ → N) (a b : ℕ) :
    ∑ i ∈ Finset.range a, ∑ j ∈ Finset.range b, f (b * i + j) = ∑ n ∈ Finset.range (a * b), f n := by
  induction a with
  | zero => simp
  | succ a ih =>
    rw [Finset.sum_range_succ, ih, Nat.succ_mul, Finset.sum_range_add, Nat.mul_comm a b]

end Cert.MaskedCos

end
-- ==== Proof.RefSide.lean ====
import proofs.«117524_j6622839571360_1_alg».proof.Defs
import proofs.«117524_j6622839571360_1_alg».proof.Proof.Gen.ReferenceIdeal.Read
import proofs.«117524_j6622839571360_1_alg».proof.Proof.Spec
import Idealize.ShloMosaic.Lib.WordSum
import Idealize.ShloMosaic.Lib.ValueIdx
import Idealize.ShloMosaic.PureOps.Reduce
import Idealize.ShloMosaic.PureOps.Ideal
import Idealize.ShloMosaic.PureOps.Ideal.Laws
import Mathlib.Data.BitVec
import Mathlib.Data.EReal.Basic
import Mathlib.Algebra.BigOperators.Fin

/-!
  The reference program's result, over the extended reals, is the masked mean of cosine similarities that
  `Cert.MaskedCos.loss` names, of the two reshaped feature arrays and the mask.

  Two sums carry the whole argument.
  * The numerator is a float sum over every index `(b, p, q)` of an entry which, read through the broadcasts, the two
    norms and the dot product, is `cosTerm` of the two channel vectors at `(b, ·, p)` and `(b, ·, q)` and of the mask word.
  * The denominator is an INTEGER sum of 32-bit words, each 0 or 1, one per index. There are 2048 * 49 * 49 = 4917248 of them,
    fewer than 2^31, so the sum never wraps and its signed value is the count; converted to a float it is the sum of
    the `maskTerm`s.
  Both are sums over the rank-3 index set, which is the product of its three coordinate ranges.
-/

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Small facts about words and casts -/

/-- A fold of word addition over a finite set is the initial word plus the sum. -/
theorem fold_addi_eq_sum {ι : Type*} (S : Finset ι) (init : BitVec 32) (x : ι → BitVec 32) :
    S.fold IntOp.addi init x = init + ∑ i ∈ S, x i := by
  induction S using Finset.cons_induction with
  | empty => simp
  | cons a S ha ih =>
    rw [Finset.fold_cons, Finset.sum_cons, ih]
    show x a + (init + _) = _
    rw [add_left_comm]

/-- The coercion of the reals into the extended reals goes through a finite sum. -/
theorem coe_sum_ereal {ι : Type*} (S : Finset ι) (f : ι → ℝ) :
    ((∑ i ∈ S, f i : ℝ) : EReal) = ∑ i ∈ S, (f i : EReal) := by
  induction S using Finset.cons_induction with
  | empty => simp
  | cons a S ha ih => rw [Finset.sum_cons, Finset.sum_cons, EReal.coe_add, ih]

/-- The mask word widened to 32 bits: 1 where the mask word is nonzero, 0 where it is zero. -/
abbrev bitWord (a : BitVec 32) : BitVec 32 := (IntOp.cmpi .ne a 0#32).setWidth 32

/-- Its value is at most 1. -/
theorem bitWord_toNat_le (a : BitVec 32) : (bitWord a).toNat ≤ 1 := by
  have h := (IntOp.cmpi .ne a 0#32).isLt
  show ((IntOp.cmpi .ne a 0#32).setWidth 32).toNat ≤ 1
  rw [BitVec.toNat_setWidth]
  have : (IntOp.cmpi .ne a 0#32).toNat % 2 ^ 32 ≤ (IntOp.cmpi .ne a 0#32).toNat := Nat.mod_le _ _
  omega

/-- A word below 2^31 has its natural value as its signed value. -/
theorem toInt_of_lt {w : BitVec 32} (h : w.toNat < 2 ^ 31) : w.toInt = (w.toNat : ℤ) :=
  BitVec.toInt_eq_toNat_of_lt (by omega)

/-- The mask term is the natural value of the widened mask bit. -/
theorem maskTerm_eq (a : BitVec 32) : Cert.MaskedCos.maskTerm a = (((bitWord a).toNat : ℝ) : EReal) := by
  unfold Cert.MaskedCos.maskTerm
  rw [toInt_of_lt (w := bitWord a) (by have := bitWord_toNat_le a; omega)]
  norm_cast

/-! ## The denominator: a count that does not wrap -/

/-- The widened mask bit at an index. -/
theorem v20_apply (x2 : (⟨S2048x49x49, .i32⟩ : BufTy).Contents (Elt Ideal)) (j : S2048x49x49.Idx) :
    val_main_v20 (F := Ideal) x2 j = bitWord (x2 j) := by
  rw [val_main_v20_apply, val_main_v17_apply, val_main_v16_apply, val_main_v15_apply, val_main_c_apply]

/-- The number of indices: 2048 * 49 * 49 ones. -/
theorem sum_bitWord_le (x2 : (⟨S2048x49x49, .i32⟩ : BufTy).Contents (Elt Ideal)) :
    ∑ j : S2048x49x49.Idx, (bitWord (x2 j)).toNat ≤ 4917248 := by
  rw [Cert.MaskedCos.sum_idx3]
  calc ∑ a : Fin 2048, ∑ b : Fin 49, ∑ c : Fin 49, (bitWord (x2 (ix3 a b c))).toNat
      ≤ ∑ _a : Fin 2048, ∑ _b : Fin 49, ∑ _c : Fin 49, 1 :=
        Finset.sum_le_sum fun a _ => Finset.sum_le_sum fun b _ => Finset.sum_le_sum fun c _ => bitWord_toNat_le _
    _ = 4917248 := by simp

/-- The integer reduce over all three axes is the sum of the words. -/
theorem v21_eq_sum (x2 : (⟨S2048x49x49, .i32⟩ : BufTy).Contents (Elt Ideal)) (i : S_.Idx) :
    val_main_v21 (F := Ideal) x2 i = ∑ j : S2048x49x49.Idx, bitWord (x2 j) := by
  unfold val_main_v21
  rw [Host.reduce_eq_fold, Finset.filter_true_of_mem (fun j _ => funext fun b => b.elim0), fold_addi_eq_sum,
    val_main_c_3_apply]
  show (0 : BitVec 32) + _ = _
  rw [zero_add]
  exact Finset.sum_congr rfl fun j _ => v20_apply x2 j

/-- Lemma A. The count, converted to a float, is the sum of the mask terms: the denominator. -/
theorem den_eq (x2 : (⟨S2048x49x49, .i32⟩ : BufTy).Contents (Elt Ideal)) (i : S_.Idx) :
    val_main_v22 (F := Ideal) x2 i = Cert.MaskedCos.den x2 := by
  have hle := sum_bitWord_le x2
  have hnat : (∑ j : S2048x49x49.Idx, bitWord (x2 j)).toNat = ∑ j : S2048x49x49.Idx, (bitWord (x2 j)).toNat :=
    WordSum.toNat_sum _ _ (by omega)
  rw [val_main_v22_apply, v21_eq_sum]
  show (((∑ j : S2048x49x49.Idx, bitWord (x2 j)).toInt : ℝ) : EReal) = _
  rw [toInt_of_lt (by rw [hnat]; omega), hnat]
  unfold Cert.MaskedCos.den Cert.MaskedCos.denRow
  rw [← Cert.MaskedCos.sum_idx3 (fun j => Cert.MaskedCos.maskTerm (x2 j))]
  simp only [maskTerm_eq]
  rw [← coe_sum_ereal, Int.cast_natCast, Nat.cast_sum]

/-! ## The numerator: one entry, then the sum -/

theorem lidx_eq (j : S2048x49x49.Idx) (k : Fin 256) :
    lidx_main_v2 j k = ix3 (n0 := 2048) (n1 := 256) (n2 := 49) (j 0) k (j 1) := by
  funext a; match a with | ⟨0, _⟩ => rfl | ⟨1, _⟩ => rfl | ⟨2, _⟩ => rfl

theorem ridx_eq (j : S2048x49x49.Idx) (k : Fin 256) :
    ridx_main_v2 j k = ix3 (n0 := 2048) (n1 := 256) (n2 := 49) (j 0) k (j 2) := by
  funext a; match a with | ⟨0, _⟩ => rfl | ⟨1, _⟩ => rfl | ⟨2, _⟩ => rfl

theorem nidx0_eq (j : S2048x49x49.Idx) (k : Fin 256) :
    idx_main_call0_v1 (idx_main_v9 (idx_main_v11 j)) k = ix3 (n0 := 2048) (n1 := 256) (n2 := 49) (j 0) k (j 1) := by
  funext a; match a with | ⟨0, _⟩ => rfl | ⟨1, _⟩ => rfl | ⟨2, _⟩ => rfl

theorem nidx1_eq (j : S2048x49x49.Idx) (k : Fin 256) :
    idx_main_call1_v1 (idx_main_v10 (idx_main_v12 j)) k = ix3 (n0 := 2048) (n1 := 256) (n2 := 49) (j 0) k (j 2) := by
  funext a; match a with | ⟨0, _⟩ => rfl | ⟨1, _⟩ => rfl | ⟨2, _⟩ => rfl

/-- Lemma B. The selected quotient at `(b, p, q)` is the masked cosine of the channel vectors at `(b, ·, p)` and `(b, ·, q)`. -/
theorem entry_eq (x0 x1 : (⟨S2048x256x7x7, .f32⟩ : BufTy).Contents (Elt Ideal))
    (x2 : (⟨S2048x49x49, .i32⟩ : BufTy).Contents (Elt Ideal)) (j : S2048x49x49.Idx) :
    val_main_v18 (F := Ideal) x0 x1 x2 j
      = Cert.MaskedCos.cosTerm (fun k => val_main_v0 (F := Ideal) x0 (ix3 (n0 := 2048) (n1 := 256) (n2 := 49) (j 0) k (j 1)))
          (fun k => val_main_v1 (F := Ideal) x1 (ix3 (n0 := 2048) (n1 := 256) (n2 := 49) (j 0) k (j 2))) (x2 j) := by
  rw [val_main_v18_apply, val_main_v17_apply, val_main_v16_apply, val_main_v15_apply, val_main_c_apply,
    val_main_call2_v1_apply, val_main_call2_v0_apply, val_main_cst_1_apply,
    val_main_v14_apply, val_main_v2_apply, val_main_v13_apply,
    val_main_v11_apply, val_main_v9_apply, val_main_v5_apply, val_main_v3_apply, val_main_call0_v1_apply,
    val_main_call0_cst_apply, val_main_v4_apply, val_main_cst_apply,
    val_main_v12_apply, val_main_v10_apply, val_main_v8_apply, val_main_v6_apply, val_main_call1_v1_apply,
    val_main_call1_cst_apply, val_main_v7_apply, val_main_cst_0_apply]
  simp only [val_main_call0_v0_apply, val_main_call1_v0_apply, lidx_eq, ridx_eq, nidx0_eq, nidx1_eq,
    Ideal.hostDivf_def, Ideal.mulf_def, Ideal.maximumf_def, Ideal.hostUnary_sqrt_def, Ideal.ofBits_def,
    Ideal.ofBits_zero_f32, zero_add]
  unfold Cert.MaskedCos.cosTerm
  simp only [Ideal.ofBits_zero_f32]

/-- The float sum of the entries is the numerator. -/
theorem num_eq (x0 x1 : (⟨S2048x256x7x7, .f32⟩ : BufTy).Contents (Elt Ideal))
    (x2 : (⟨S2048x49x49, .i32⟩ : BufTy).Contents (Elt Ideal)) :
    ∑ j : S2048x49x49.Idx, val_main_v18 (F := Ideal) x0 x1 x2 j
      = Cert.MaskedCos.num (val_main_v0 (F := Ideal) x0) (val_main_v1 (F := Ideal) x1) x2 := by
  rw [Cert.MaskedCos.sum_idx3]
  unfold Cert.MaskedCos.num Cert.MaskedCos.numRow
  refine Finset.sum_congr rfl fun b _ => Finset.sum_congr rfl fun p _ => Finset.sum_congr rfl fun q _ => ?_
  rw [entry_eq]

/-! ## The result -/

theorem result_eq (x0 x1 : (⟨S2048x256x7x7, .f32⟩ : BufTy).Contents (Elt Ideal)) (x2 : (⟨S2048x49x49, .i32⟩ : BufTy).Contents (Elt Ideal)) :
    val_main_v24 (F := Ideal) x0 x1 x2 = fun _ => Cert.MaskedCos.loss (val_main_v0 (F := Ideal) x0) (val_main_v1 (F := Ideal) x1) x2 := by
  funext i
  rw [val_main_v24_apply, val_main_v23_apply, val_main_v19_apply, val_main_cst_2_apply, den_eq, num_eq]
  simp only [Ideal.hostNegf_def, Ideal.negf_def, Ideal.hostDivf_def, Ideal.ofBits_def, Ideal.ofBits_zero_f32, zero_add]
  rfl

end Cert.ReferenceIdeal.RefValue

end
-- ==== Proof.KPieces.lean ====
/-
  What each control case of the kernel body leaves behind, as values.

  The body keeps two one-word accumulators (the numerator's and the denominator's running sums over the 32 inner
  grid steps of a core). At a core's first step it stores 0 into each and then adds the step's block sum; at the other
  steps it adds the block sum to what the step before left; at the core's last step it also broadcasts each
  accumulator over the core's [1, 8, 128] output block. The lemmas below read these off the body's covering stores:
  each accumulator ends at (what it held, or the freshly stored 0) + (this step's block sum), and at the last step
  each output block is the broadcast of that.
-/
import proofs.«117524_j6622839571360_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First step of a core: the numerator's accumulator ends at 0 + the block's sum. -/
theorem numAcc_first (c : Dev nD) (i : grid0.Coords) (arg2 : Memref sig .tc .vmem S32x256x49 .f32) (harg2 : arg2.IsWhole) (arg3 : Memref sig .tc .vmem S32x256x49 .f32) (harg3 : arg3.IsWhole) (arg4 : Memref sig .tc .vmem S32x49x49 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 : Vec F S32x256x49 .f32) (x1 : Vec F S32x256x49 .f32) (x2 : Vec F S32x49x49 .i32) :
    sout0_A_0 c i arg2 harg2 arg3 harg3 arg4 harg4 arg5 harg5 arg6 harg6 arg7 harg7 arg8 harg8 hc0 hc1 x0 x1 x2 = k0_pay1 (k0_pay8 x0 x1 x2) k0_pay5 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1) hz2]
  simp only [View.readAt_eq_ld, harg2.read_unread, harg3.read_unread, harg4.read_unread, harg7.read_unread, harg8.read_unread,
    View.readCov_unit_zero (S := S1x1) _ hz2,
    View.ld_unit_zero (S := S32x256x49) hz3, View.ld_unit_zero (S := S32x49x49) hz3, View.ld_unit_zero (S := S1x1) hz2]

/-- First step of a core: the denominator's accumulator ends at 0 + the block's count. -/
theorem denAcc_first (c : Dev nD) (i : grid0.Coords) (arg2 : Memref sig .tc .vmem S32x256x49 .f32) (harg2 : arg2.IsWhole) (arg3 : Memref sig .tc .vmem S32x256x49 .f32) (harg3 : arg3.IsWhole) (arg4 : Memref sig .tc .vmem S32x49x49 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 : Vec F S32x256x49 .f32) (x1 : Vec F S32x256x49 .f32) (x2 : Vec F S32x49x49 .i32) :
    sout0_A_1 c i arg2 harg2 arg3 harg3 arg4 harg4 arg5 harg5 arg6 harg6 arg7 harg7 arg8 harg8 hc0 hc1 x0 x1 x2 = k0_pay2 (k0_pay7 x2) k0_pay6 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1) hz2]
  simp only [View.readAt_eq_ld, harg2.read_unread, harg3.read_unread, harg4.read_unread, harg7.read_unread, harg8.read_unread,
    View.readCov_unit_zero (S := S1x1) _ hz2,
    View.ld_unit_zero (S := S32x256x49) hz3, View.ld_unit_zero (S := S32x49x49) hz3, View.ld_unit_zero (S := S1x1) hz2]

/-- A middle step: the numerator's accumulator ends at what it held + the block's sum. -/
theorem numAcc_mid (c : Dev nD) (i : grid0.Coords) (arg2 : Memref sig .tc .vmem S32x256x49 .f32) (harg2 : arg2.IsWhole) (arg3 : Memref sig .tc .vmem S32x256x49 .f32) (harg3 : arg3.IsWhole) (arg4 : Memref sig .tc .vmem S32x49x49 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 : Vec F S32x256x49 .f32) (x1 : Vec F S32x256x49 .f32) (x2 : Vec F S32x49x49 .i32) (xs0 xs1 : Vec F S1x1 .f32) :
    sout0_B_0 c i arg2 harg2 arg3 harg3 arg4 harg4 arg5 harg5 arg6 harg6 arg7 harg7 arg8 harg8 hc0 hc1 x0 x1 x2 xs0 xs1 = k0_pay1 (k0_pay8 x0 x1 x2) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz2]
  simp only [View.readAt_eq_ld, harg2.read_unread, harg3.read_unread, harg4.read_unread, harg7.read_unread, harg8.read_unread,
    View.readCov_unit_zero (S := S1x1) _ hz2,
    View.ld_unit_zero (S := S32x256x49) hz3, View.ld_unit_zero (S := S32x49x49) hz3, View.ld_unit_zero (S := S1x1) hz2]

/-- A middle step: the denominator's accumulator ends at what it held + the block's count. -/
theorem denAcc_mid (c : Dev nD) (i : grid0.Coords) (arg2 : Memref sig .tc .vmem S32x256x49 .f32) (harg2 : arg2.IsWhole) (arg3 : Memref sig .tc .vmem S32x256x49 .f32) (harg3 : arg3.IsWhole) (arg4 : Memref sig .tc .vmem S32x49x49 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 : Vec F S32x256x49 .f32) (x1 : Vec F S32x256x49 .f32) (x2 : Vec F S32x49x49 .i32) (xs0 xs1 : Vec F S1x1 .f32) :
    sout0_B_1 c i arg2 harg2 arg3 harg3 arg4 harg4 arg5 harg5 arg6 harg6 arg7 harg7 arg8 harg8 hc0 hc1 x0 x1 x2 xs0 xs1 = k0_pay2 (k0_pay7 x2) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz2]
  simp only [View.readAt_eq_ld, harg2.read_unread, harg3.read_unread, harg4.read_unread, harg7.read_unread, harg8.read_unread,
    View.readCov_unit_zero (S := S1x1) _ hz2,
    View.ld_unit_zero (S := S32x256x49) hz3, View.ld_unit_zero (S := S32x49x49) hz3, View.ld_unit_zero (S := S1x1) hz2]

/-- Last step of a core: the numerator's accumulator, as at a middle step. -/
theorem numAcc_last (c : Dev nD) (i : grid0.Coords) (arg2 : Memref sig .tc .vmem S32x256x49 .f32) (harg2 : arg2.IsWhole) (arg3 : Memref sig .tc .vmem S32x256x49 .f32) (harg3 : arg3.IsWhole) (arg4 : Memref sig .tc .vmem S32x49x49 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S32x256x49 .f32) (x1 : Vec F S32x256x49 .f32) (x2 : Vec F S32x49x49 .i32) (xs0 xs1 : Vec F S1x1 .f32) :
    sout0_C_0 c i arg2 harg2 arg3 harg3 arg4 harg4 arg5 harg5 arg6 harg6 arg7 harg7 arg8 harg8 hc0 hc1 x0 x1 x2 xs0 xs1 = k0_pay1 (k0_pay8 x0 x1 x2) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz2]
  simp only [View.readAt_eq_ld, harg2.read_unread, harg3.read_unread, harg4.read_unread, harg7.read_unread, harg8.read_unread,
    View.readCov_unit_zero (S := S1x1) _ hz2,
    View.ld_unit_zero (S := S32x256x49) hz3, View.ld_unit_zero (S := S32x49x49) hz3, View.ld_unit_zero (S := S1x1) hz2]

/-- Last step of a core: the denominator's accumulator, as at a middle step. -/
theorem denAcc_last (c : Dev nD) (i : grid0.Coords) (arg2 : Memref sig .tc .vmem S32x256x49 .f32) (harg2 : arg2.IsWhole) (arg3 : Memref sig .tc .vmem S32x256x49 .f32) (harg3 : arg3.IsWhole) (arg4 : Memref sig .tc .vmem S32x49x49 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S32x256x49 .f32) (x1 : Vec F S32x256x49 .f32) (x2 : Vec F S32x49x49 .i32) (xs0 xs1 : Vec F S1x1 .f32) :
    sout0_C_1 c i arg2 harg2 arg3 harg3 arg4 harg4 arg5 harg5 arg6 harg6 arg7 harg7 arg8 harg8 hc0 hc1 x0 x1 x2 xs0 xs1 = k0_pay2 (k0_pay7 x2) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz2]
  simp only [View.readAt_eq_ld, harg2.read_unread, harg3.read_unread, harg4.read_unread, harg7.read_unread, harg8.read_unread,
    View.readCov_unit_zero (S := S1x1) _ hz2,
    View.ld_unit_zero (S := S32x256x49) hz3, View.ld_unit_zero (S := S32x49x49) hz3, View.ld_unit_zero (S := S1x1) hz2]

/-- Last step of a core: the numerator's output block is the broadcast of the finished accumulator. -/
theorem numOut_last (c : Dev nD) (i : grid0.Coords) (arg2 : Memref sig .tc .vmem S32x256x49 .f32) (harg2 : arg2.IsWhole) (arg3 : Memref sig .tc .vmem S32x256x49 .f32) (harg3 : arg3.IsWhole) (arg4 : Memref sig .tc .vmem S32x49x49 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S32x256x49 .f32) (x1 : Vec F S32x256x49 .f32) (x2 : Vec F S32x49x49 .i32) (xs0 xs1 : Vec F S1x1 .f32) :
    out0_C_3 c i arg2 harg2 arg3 harg3 arg4 harg4 arg5 harg5 arg6 harg6 arg7 harg7 arg8 harg8 hc0 hc1 x0 x1 x2 xs0 xs1 = k0_pay3 (k0_pay1 (k0_pay8 x0 x1 x2) xs0) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz3]
  simp only [View.readAt_eq_ld, harg2.read_unread, harg3.read_unread, harg4.read_unread, harg7.read_unread, harg8.read_unread,
    View.readCov_unit_zero (S := S1x1) _ hz2,
    View.ld_unit_zero (S := S32x256x49) hz3, View.ld_unit_zero (S := S32x49x49) hz3, View.ld_unit_zero (S := S1x1) hz2]

/-- Last step of a core: the denominator's output block is the broadcast of the finished accumulator. -/
theorem denOut_last (c : Dev nD) (i : grid0.Coords) (arg2 : Memref sig .tc .vmem S32x256x49 .f32) (harg2 : arg2.IsWhole) (arg3 : Memref sig .tc .vmem S32x256x49 .f32) (harg3 : arg3.IsWhole) (arg4 : Memref sig .tc .vmem S32x49x49 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S32x256x49 .f32) (x1 : Vec F S32x256x49 .f32) (x2 : Vec F S32x49x49 .i32) (xs0 xs1 : Vec F S1x1 .f32) :
    out0_C_4 c i arg2 harg2 arg3 harg3 arg4 harg4 arg5 harg5 arg6 harg6 arg7 harg7 arg8 harg8 hc0 hc1 x0 x1 x2 xs0 xs1 = k0_pay4 (k0_pay2 (k0_pay7 x2) xs1) := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz3]
  simp only [View.readAt_eq_ld, harg2.read_unread, harg3.read_unread, harg4.read_unread, harg7.read_unread, harg8.read_unread,
    View.readCov_unit_zero (S := S1x1) _ hz2,
    View.ld_unit_zero (S := S32x256x49) hz3, View.ld_unit_zero (S := S32x49x49) hz3, View.ld_unit_zero (S := S1x1) hz2]

end Cert.KernelIdeal.Pieces

end
-- ==== Proof.KPayload.lean ====
/-
  The kernel body's arithmetic, read at the extended reals.

  At one grid step the body holds a block of 32 batches: x0, x1 of shape [32, 256, 49] (the two feature blocks) and
  the mask block x2 of shape [32, 49, 49]. Its numerator payload is the sum over the block's (t, p, q) of the masked
  cosine similarity, taken as three nested lane sums (over q, then p, then t); its denominator payload adds, to the
  running count, the sum over the same (t, p, q) of the mask read as 0 / 1. Here each is identified with the
  specification's per-batch sums `numRow` / `denRow` over the block's 32 batches.
-/
import proofs.«117524_j6622839571360_1_alg».proof.Proof.Gen.KernelIdeal.Frame
import proofs.«117524_j6622839571360_1_alg».proof.Proof.Spec
import Idealize.ShloMosaic.Lib.ValueIdx
import Idealize.ShloMosaic.Lib.ValueLayout
import Idealize.ShloMosaic.PureOps.Ideal.Laws
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Payload

open Cert.KernelIdeal Cert.KernelIdeal.Gen Cert.MaskedCos Idealize.ShloMosaic.ValueIdx

/-! ## Three nested lane sums are the triple sum -/

theorem lift_q (h : S32x49x49.Reduces [2] S32x49) (t : Fin 32) (p q : Fin 49) : h.lift (ix2 t p) q = ix3 t p q :=
  funext fun d => Fin.ext (by match d with | ⟨0, _⟩ => rfl | ⟨1, _⟩ => rfl | ⟨2, _⟩ => rfl)

theorem lift_p (h : S32x49.Reduces [1] S32) (t : Fin 32) (p : Fin 49) : h.lift (ix1 t) p = ix2 t p :=
  funext fun d => Fin.ext (by match d with | ⟨0, _⟩ => rfl | ⟨1, _⟩ => rfl)

theorem lift_t (h : S1x32.Reduces [1] S1) (u : Fin 1) (t : Fin 32) : h.lift (ix1 u) t = ix2 u t :=
  funext fun d => Fin.ext (by match d with | ⟨0, _⟩ => rfl | ⟨1, _⟩ => rfl)

/-- A lane sum from the zero word over the last axis of a [32, 49, 49] block. -/
theorem sum_q (w : FVec Ideal S32x49x49 .f32) (hφ : FKind.Formats .f32)
    (hacc : (0x00000000#32 : BitVec 32) = 0x00000000#32) (t : Fin 32) (p : Fin 49) :
    multiReduction .add [2] S32x49 w 0x00000000#32 reduces_S32x49x49_S32x49 hφ hacc (ix2 t p) = ∑ q : Fin 49, w (ix3 t p q) :=
  (Ideal.multiReduction_add_single w 0x00000000#32 reduces_S32x49x49_S32x49 hφ hacc (ix2 t p)).trans
    (Finset.sum_congr rfl fun q _ => congrArg w (lift_q _ t p q))

/-- A lane sum from the zero word over the last axis of a [32, 49] array. -/
theorem sum_p (w : FVec Ideal S32x49 .f32) (hφ : FKind.Formats .f32)
    (hacc : (0x00000000#32 : BitVec 32) = 0x00000000#32) (t : Fin 32) :
    multiReduction .add [1] S32 w 0x00000000#32 reduces_S32x49_S32 hφ hacc (ix1 t) = ∑ p : Fin 49, w (ix2 t p) :=
  (Ideal.multiReduction_add_single w 0x00000000#32 reduces_S32x49_S32 hφ hacc (ix1 t)).trans
    (Finset.sum_congr rfl fun p _ => congrArg w (lift_p _ t p))

/-- A lane sum from the zero word over the last axis of a [1, 32] array. -/
theorem sum_t (w : FVec Ideal S1x32 .f32) (hφ : FKind.Formats .f32)
    (hacc : (0x00000000#32 : BitVec 32) = 0x00000000#32) (u : Fin 1) :
    multiReduction .add [1] S1 w 0x00000000#32 reduces_S1x32_S1 hφ hacc (ix1 u) = ∑ t : Fin 32, w (ix2 u t) :=
  (Ideal.multiReduction_add_single w 0x00000000#32 reduces_S1x32_S1 hφ hacc (ix1 u)).trans
    (Finset.sum_congr rfl fun t _ => congrArg w (lift_t _ u t))

/-- The sum over q, then over p, then over t of a [32, 49, 49] block, stored as a [1, 1] vector: its one entry is
    the sum over all (t, p, q). -/
theorem tower (w : FVec Ideal S32x49x49 .f32) (j : S1x1.Idx) :
    (shapeCast S1x1 (multiReduction .add [1] S1 (shapeCast S1x32 (multiReduction .add [1] S32
      (multiReduction .add [2] S32x49 w 0x00000000#32 reduces_S32x49x49_S32x49 (.inl rfl) rfl)
      0x00000000#32 reduces_S32x49_S32 (.inl rfl) rfl) shapeCasts_S32_S1x32)
      0x00000000#32 reduces_S1x32_S1 (.inl rfl) rfl) shapeCasts_S1_S1x1) j
    = ∑ t : Fin 32, ∑ p : Fin 49, ∑ q : Fin 49, w (ix3 t p q) := by
  obtain ⟨a, b, rfl⟩ : ∃ (a : Fin 1) (b : Fin 1), j = ix2 a b := ⟨j 0, j 1, eq_ix2 j⟩
  refine (shapeCast_a_1a_apply _ shapeCasts_S1_S1x1 a b).trans ?_
  refine (sum_t _ _ _ b).trans ?_
  refine Finset.sum_congr rfl fun t _ => ?_
  refine (shapeCast_a_1a_apply _ shapeCasts_S32_S1x32 b t).trans ?_
  refine (sum_p _ _ _ t).trans ?_
  refine Finset.sum_congr rfl fun p _ => ?_
  exact sum_q _ _ _ t p

/-! ## The block's matrix product, channel sums and norms at an index -/

theorem lhs_0 (i : S32x49x49.Idx) (q : dot_S32x256x49_S32x256x49_S32x49x49_1_1_2_2_0_0.contr.Idx) : (dot_S32x256x49_S32x256x49_S32x49x49_1_1_2_2_0_0.lhsIdx i q 0).val = (i 0).val := by
  unfold DotDims.lhsIdx
  rw [dif_pos (show (0 : Fin S32x256x49.rank) ∈ dot_S32x256x49_S32x256x49_S32x49x49_1_1_2_2_0_0.lhsBatch by decide)]
  rfl
theorem lhs_1 (i : S32x49x49.Idx) (q : dot_S32x256x49_S32x256x49_S32x49x49_1_1_2_2_0_0.contr.Idx) : (dot_S32x256x49_S32x256x49_S32x49x49_1_1_2_2_0_0.lhsIdx i q 1).val = (q ⟨0, by decide⟩).val :=
  dot_S32x256x49_S32x256x49_S32x49x49_1_1_2_2_0_0.lhsIdx_val_of_single rfl i q
theorem lhs_2 (i : S32x49x49.Idx) (q : dot_S32x256x49_S32x256x49_S32x49x49_1_1_2_2_0_0.contr.Idx) : (dot_S32x256x49_S32x256x49_S32x49x49_1_1_2_2_0_0.lhsIdx i q 2).val = (i 1).val := by
  unfold DotDims.lhsIdx
  rw [dif_neg (show ¬(2 : Fin S32x256x49.rank) ∈ dot_S32x256x49_S32x256x49_S32x49x49_1_1_2_2_0_0.lhsBatch by decide), dif_pos (show (2 : Fin S32x256x49.rank) ∈ dot_S32x256x49_S32x256x49_S32x49x49_1_1_2_2_0_0.lhsNonContracting by decide)]
  rfl
theorem rhs_0 (i : S32x49x49.Idx) (q : dot_S32x256x49_S32x256x49_S32x49x49_1_1_2_2_0_0.contr.Idx) : (dot_S32x256x49_S32x256x49_S32x49x49_1_1_2_2_0_0.rhsIdx i q 0).val = (i 0).val := by
  unfold DotDims.rhsIdx
  rw [dif_pos (show (0 : Fin S32x256x49.rank) ∈ dot_S32x256x49_S32x256x49_S32x49x49_1_1_2_2_0_0.rhsBatch by decide)]
  rfl
theorem rhs_1 (i : S32x49x49.Idx) (q : dot_S32x256x49_S32x256x49_S32x49x49_1_1_2_2_0_0.contr.Idx) : (dot_S32x256x49_S32x256x49_S32x49x49_1_1_2_2_0_0.rhsIdx i q 1).val = (q ⟨0, by decide⟩).val :=
  dot_S32x256x49_S32x256x49_S32x49x49_1_1_2_2_0_0.rhsIdx_val_of_single rfl i q
theorem rhs_2 (i : S32x49x49.Idx) (q : dot_S32x256x49_S32x256x49_S32x49x49_1_1_2_2_0_0.contr.Idx) : (dot_S32x256x49_S32x256x49_S32x49x49_1_1_2_2_0_0.rhsIdx i q 2).val = (i 2).val := by
  unfold DotDims.rhsIdx
  rw [dif_neg (show ¬(2 : Fin S32x256x49.rank) ∈ dot_S32x256x49_S32x256x49_S32x49x49_1_1_2_2_0_0.rhsBatch by decide), dif_pos (show (2 : Fin S32x256x49.rank) ∈ dot_S32x256x49_S32x256x49_S32x49x49_1_1_2_2_0_0.rhsNonContracting by decide)]
  rfl

/-- The batched product contracts the channel axis of both operands: entry (t, p, q) is the sum over the 256
    channels k of l[t, k, p] * r[t, k, q]. -/
theorem dots_apply (l r : FVec Ideal S32x256x49 .bf16) (t : Fin 32) (p q : Fin 49) :
    matmul dot_S32x256x49_S32x256x49_S32x49x49_1_1_2_2_0_0 none l r (constant S32x49x49 .f32 0x00000000#32) (ix3 t p q)
      = ∑ k : Fin 256, l (ix3 t k p) * r (ix3 t k q) := by
  simp only [matmul]
  rw [Ideal.matmul_constant_zero_apply, ← Equiv.sum_comp (contrEquiv1 dot_S32x256x49_S32x256x49_S32x49x49_1_1_2_2_0_0 256 rfl rfl).symm]
  refine Finset.sum_congr rfl fun k _ => ?_
  have hk := contrEquiv1_symm_val dot_S32x256x49_S32x256x49_S32x49x49_1_1_2_2_0_0 256 rfl rfl k
  have el : dot_S32x256x49_S32x256x49_S32x49x49_1_1_2_2_0_0.lhsIdx (ix3 t p q) ((contrEquiv1 dot_S32x256x49_S32x256x49_S32x49x49_1_1_2_2_0_0 256 rfl rfl).symm k) = ix3 t k p := funext fun a => Fin.ext (by
    match a with
    | ⟨0, _⟩ => exact lhs_0 _ _
    | ⟨1, _⟩ => exact (lhs_1 _ _).trans hk
    | ⟨2, _⟩ => exact lhs_2 _ _)
  have er : dot_S32x256x49_S32x256x49_S32x49x49_1_1_2_2_0_0.rhsIdx (ix3 t p q) ((contrEquiv1 dot_S32x256x49_S32x256x49_S32x49x49_1_1_2_2_0_0 256 rfl rfl).symm k) = ix3 t k q := funext fun a => Fin.ext (by
    match a with
    | ⟨0, _⟩ => exact rhs_0 _ _
    | ⟨1, _⟩ => exact (rhs_1 _ _).trans hk
    | ⟨2, _⟩ => exact rhs_2 _ _)
  rw [el, er]

theorem lift_c (h : S32x256x49.Reduces [1] S32x49) (t : Fin 32) (p : Fin 49) (k : Fin 256) : h.lift (ix2 t p) k = ix3 t k p :=
  funext fun d => Fin.ext (by match d with | ⟨0, _⟩ => rfl | ⟨1, _⟩ => rfl | ⟨2, _⟩ => rfl)

/-- A lane sum from the zero word over the channel axis of a [32, 256, 49] block. -/
theorem sum_c (w : FVec Ideal S32x256x49 .f32) (hφ : FKind.Formats .f32)
    (hacc : (0x00000000#32 : BitVec 32) = 0x00000000#32) (t : Fin 32) (p : Fin 49) :
    multiReduction .add [1] S32x49 w 0x00000000#32 reduces_S32x256x49_S32x49 hφ hacc (ix2 t p) = ∑ k : Fin 256, w (ix3 t k p) :=
  (Ideal.multiReduction_add_single w 0x00000000#32 reduces_S32x256x49_S32x49 hφ hacc (ix2 t p)).trans
    (Finset.sum_congr rfl fun k _ => congrArg w (lift_c _ t p k))

/-- A [32, 49] array viewed as a column [32, 49, 1] and broadcast along the last axis: entry (t, p, q) is v[t, p]. -/
theorem bcast_col {α : Type} (v : S32x49.Idx → α) (t : Fin 32) (p q : Fin 49) :
    broadcastTo S32x49x49 (shapeCast S32x49x1 v shapeCasts_S32x49_S32x49x1) broadcasts_S32x49x1_S32x49x49 (ix3 t p q) = v (ix2 t p) := by
  refine (broadcastTo_apply _ _ (ix3 t p q) (ix3 t p (0 : Fin 1)) fun ax => ?_).trans ?_
  · match ax with
    | ⟨0, _⟩ => rfl
    | ⟨1, _⟩ => rfl
    | ⟨2, _⟩ => rfl
  · exact shapeCast_apply v _ _ (ix2 t p) (by
      rw [Shape.rowMajor_val_two, Shape.rowMajor_val_three]
      show t.val * 49 + p.val = (t.val * 49 + p.val) * 1 + 0
      omega)

/-- A [32, 49] array viewed as a row [32, 1, 49] and broadcast along the middle axis: entry (t, p, q) is v[t, q]. -/
theorem bcast_row {α : Type} (v : S32x49.Idx → α) (t : Fin 32) (p q : Fin 49) :
    broadcastTo S32x49x49 (shapeCast S32x1x49 v shapeCasts_S32x49_S32x1x49) broadcasts_S32x1x49_S32x49x49 (ix3 t p q) = v (ix2 t q) := by
  refine (broadcastTo_apply _ _ (ix3 t p q) (ix3 t (0 : Fin 1) q) fun ax => ?_).trans ?_
  · match ax with
    | ⟨0, _⟩ => rfl
    | ⟨1, _⟩ => rfl
    | ⟨2, _⟩ => rfl
  · exact shapeCast_apply v _ _ (ix2 t q) (by
      rw [Shape.rowMajor_val_two, Shape.rowMajor_val_three]
      show t.val * 49 + q.val = (t.val * 1 + 0) * 49 + q.val
      omega)

/-! ## The two block payloads -/

/-- The mask bit at an index: the mask word compared with zero. -/
theorem mask_apply (x2 : IVec S32x49x49 32) (i : S32x49x49.Idx) : k0_pay7 (F := Ideal) x2 i = IntOp.cmpi .ne (x2 i) 0#32 := rfl

/-- One bounded norm at (t, p): the larger of the channel vector's Euclidean norm and the floor. -/
theorem norm_apply (x : FVec Ideal S32x256x49 .f32) (hφ : FKind.Formats .f32)
    (hacc : (0x00000000#32 : BitVec 32) = 0x00000000#32) (t : Fin 32) (p : Fin 49) :
    maximumf (sqrt (multiReduction .add [1] S32x49 (mulf x x) 0x00000000#32 reduces_S32x256x49_S32x49 hφ hacc))
        (broadcast S32x49 (FloatOps.ofBits .f32 0x358637BD#32)) (ix2 t p)
      = max (Ideal.sqrt (∑ k : Fin 256, x (ix3 t k p) * x (ix3 t k p))) normFloor := by
  show max (Ideal.sqrt (multiReduction .add [1] S32x49 (mulf x x) 0x00000000#32 reduces_S32x256x49_S32x49 hφ hacc (ix2 t p)))
      (Ideal.ofBits .f32 0x358637BD#32) = _
  rw [sum_c]
  rfl

/-- One entry of the masked quotient, with the two bounded-norm arrays left abstract. -/
theorem entry_apply (x0 x1 : FVec Ideal S32x256x49 .f32) (x2 : IVec S32x49x49 32) (nb nm : FVec Ideal S32x49 .f32)
    (t : Fin 32) (p q : Fin 49) :
    select (k0_pay7 (F := Ideal) x2)
        (divf (matmul dot_S32x256x49_S32x256x49_S32x49x49_1_1_2_2_0_0 none (truncf .bf16 x0 bitsLt_bf16_f32) (truncf .bf16 x1 bitsLt_bf16_f32) (constant S32x49x49 .f32 0x00000000#32))
          (mulf (broadcastTo S32x49x49 (shapeCast S32x49x1 nb shapeCasts_S32x49_S32x49x1) broadcasts_S32x49x1_S32x49x49)
            (broadcastTo S32x49x49 (shapeCast S32x1x49 nm shapeCasts_S32x49_S32x1x49) broadcasts_S32x1x49_S32x49x49)))
        (broadcast S32x49x49 (FloatOps.ofBits .f32 0x00000000#32)) (ix3 t p q)
      = Scalar.select (IntOp.cmpi .ne (x2 (ix3 t p q)) 0#32)
          (Ideal.div (∑ k : Fin 256, x0 (ix3 t k p) * x1 (ix3 t k q)) (nb (ix2 t p) * nm (ix2 t q)))
          (Ideal.ofBits .f32 0x00000000#32) := by
  show Scalar.select (IntOp.cmpi .ne (x2 (ix3 t p q)) 0#32)
      (Ideal.div (matmul dot_S32x256x49_S32x256x49_S32x49x49_1_1_2_2_0_0 none (truncf .bf16 x0 bitsLt_bf16_f32) (truncf .bf16 x1 bitsLt_bf16_f32) (constant S32x49x49 .f32 0x00000000#32) (ix3 t p q))
        (broadcastTo S32x49x49 (shapeCast S32x49x1 nb shapeCasts_S32x49_S32x49x1) broadcasts_S32x49x1_S32x49x49 (ix3 t p q)
          * broadcastTo S32x49x49 (shapeCast S32x1x49 nm shapeCasts_S32x49_S32x1x49) broadcasts_S32x1x49_S32x49x49 (ix3 t p q)))
      (Ideal.ofBits .f32 0x00000000#32) = _
  rw [dots_apply, bcast_col, bcast_row]
  rfl

/-- The numerator's block sum: the sum over the block's 32 batches of the specification's per-batch sum. -/
theorem blockNum_eq (x0 x1 : FVec Ideal S32x256x49 .f32) (x2 : IVec S32x49x49 32) (j : S1x1.Idx) :
    k0_pay8 (F := Ideal) x0 x1 x2 j
      = ∑ t : Fin 32, numRow (fun k p => x0 (ix3 t k p)) (fun k q => x1 (ix3 t k q)) (fun p q => x2 (ix3 t p q)) := by
  unfold k0_pay8
  refine (tower _ j).trans ?_
  unfold numRow
  refine Finset.sum_congr rfl fun t _ => Finset.sum_congr rfl fun p _ => Finset.sum_congr rfl fun q _ => ?_
  rw [shapeCast_self, shapeCast_self]
  refine (entry_apply x0 x1 x2 _ _ t p q).trans ?_
  rw [norm_apply, norm_apply]
  rfl

/-- Reading a [1, 1] vector at position (0, 0). -/
theorem extract_one {α : Type} (v : S1x1.Idx → α) (h : ∀ a, (![0, 0] : Fin 2 → Nat) a < S1x1.size a) :
    extractAt ![0, 0] v h = v (ix2 (0 : Fin 1) (0 : Fin 1)) :=
  congrArg v (funext fun a => Fin.ext (by match a with | ⟨0, _⟩ => rfl | ⟨1, _⟩ => rfl))

/-- The mask block read as numbers: entry (t, p, q) is the specification's mask term of the mask word there. -/
theorem maskNum_apply (x2 : IVec S32x49x49 32) (t : Fin 32) (p q : Fin 49) :
    (sitofp .f32 (extui 32 (k0_pay7 (F := Ideal) x2) natLt_1_32) : FVec Ideal S32x49x49 .f32) (ix3 t p q)
      = maskTerm (x2 (ix3 t p q)) := rfl

/-- Adding the one entry of a [1, 1] vector to an accumulator. -/
theorem add_extract (v xs : FVec Ideal S1x1 .f32) (j : S1x1.Idx) :
    addf xs (broadcast S1x1 (extractAt ![0, 0] v inpos_S1x1_p0_0)) j = xs j + v (ix2 (0 : Fin 1) (0 : Fin 1)) := by
  show xs j + extractAt ![0, 0] v inpos_S1x1_p0_0 = _
  rw [extract_one]

/-- The denominator's payload: what the accumulator held plus the number of nonzero mask words of the block. -/
theorem blockDen_eq (x2 : IVec S32x49x49 32) (xs : FVec Ideal S1x1 .f32) (j : S1x1.Idx) :
    k0_pay2 (F := Ideal) (k0_pay7 (F := Ideal) x2) xs j
      = xs j + ∑ t : Fin 32, denRow (fun p q => x2 (ix3 t p q)) := by
  unfold k0_pay2
  rw [shapeCast_self]
  refine (add_extract _ xs j).trans ?_
  refine congrArg (xs j + ·) ?_
  refine (tower _ _).trans ?_
  unfold denRow
  exact Finset.sum_congr rfl fun t _ => Finset.sum_congr rfl fun p _ => Finset.sum_congr rfl fun q _ => maskNum_apply x2 t p q

/-- The numerator's payload: what the accumulator held plus the block sum's one entry. -/
theorem accNum_eq (v : FVec Ideal S1x1 .f32) (xs : FVec Ideal S1x1 .f32) (j : S1x1.Idx) :
    k0_pay1 (F := Ideal) v xs j = xs j + v (ix2 (0 : Fin 1) (0 : Fin 1)) := by
  unfold k0_pay1
  rw [shapeCast_self]
  exact add_extract v xs j

/-- The words the first step stores into the two accumulators are zero. -/
theorem zeroNum (j : S1x1.Idx) : k0_pay5 (F := Ideal) j = 0 := by
  unfold k0_pay5
  rw [shapeCast_self]
  exact Ideal.ofBits_zero_f32
theorem zeroDen (j : S1x1.Idx) : k0_pay6 (F := Ideal) j = 0 := by
  unfold k0_pay6
  rw [shapeCast_self]
  exact Ideal.ofBits_zero_f32

/-- The output blocks of a core's last step: the accumulator's word at every position. -/
theorem outNum_eq (v : FVec Ideal S1x1 .f32) (i : S1x8x128.Idx) : k0_pay3 (F := Ideal) v i = v (ix2 (0 : Fin 1) (0 : Fin 1)) := by
  unfold k0_pay3
  show extractAt ![0, 0] v inpos_S1x1_p0_0 = _
  rw [extract_one]
theorem outDen_eq (v : FVec Ideal S1x1 .f32) (i : S1x8x128.Idx) : k0_pay4 (F := Ideal) v i = v (ix2 (0 : Fin 1) (0 : Fin 1)) := by
  unfold k0_pay4
  show extractAt ![0, 0] v inpos_S1x1_p0_0 = _
  rw [extract_one]

end Cert.KernelIdeal.Payload

end
-- ==== Proof.KAccum.lean ====
/-
  The two accumulators across the grid.

  The grid has 64 points, numbered t = 32 * core + step; at point t each input window holds block t of its array: the
  32 batches 32 t, ..., 32 t + 31. So the block sum at point t is the sum of the per-batch terms of those batches, and
  after point n an accumulator holds the sum of the block sums of the points since the core's first step,
  32 * (n / 32), ..., n. After a core's last step (n = 32 * core + 31) that is the core's 32 blocks, i.e. its 1024
  batches; there the body broadcasts each accumulator over the core's output block.
-/
import proofs.«117524_j6622839571360_1_alg».proof.Proof.Gen.KernelIdeal.Frame
import proofs.«117524_j6622839571360_1_alg».proof.Proof.Spec
import proofs.«117524_j6622839571360_1_alg».proof.Proof.KPieces
import proofs.«117524_j6622839571360_1_alg».proof.Proof.KPayload
import Idealize.ShloMosaic.Lib.ValueIdx
import Idealize.ShloMosaic.PureOps.Ideal.Laws
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

open scoped BigOperators

namespace Cert.KernelIdeal.Accum

open Cert.KernelIdeal Cert.KernelIdeal.Gen Cert.MaskedCos Idealize.ShloMosaic.ValueIdx

variable (m : (ℓ : Loc nD τ sig) → Buf (Elt Ideal) ℓ)

/-- The two feature arrays (reshaped to [2048, 256, 49] by the host before the kernel region) and the mask, as the
    region finds them. -/
abbrev feat0 (c : Dev nD) : FVec Ideal S2048x256x49 .f32 := V m c main_v0
abbrev feat1 (c : Dev nD) : FVec Ideal S2048x256x49 .f32 := V m c main_v1
abbrev mask (c : Dev nD) : IVec S2048x49x49 32 := V m c main_arg2

/-- The three input blocks at a grid point. -/
abbrev blk0 (c : Dev nD) (t : Fin cfg0.N) : FVec Ideal S32x256x49 .f32 := iblk m c 0 t
abbrev blk1 (c : Dev nD) (t : Fin cfg0.N) : FVec Ideal S32x256x49 .f32 := iblk m c 1 t
abbrev blk2 (c : Dev nD) (t : Fin cfg0.N) : IVec S32x49x49 32 := iblk m c 2 t

/-- At point t every input window's block index is (t, 0, 0). -/
theorem idx_facts : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0) :=
  (by decide +kernel : ∀ t : Fin grid0.N, _)

/-- Block t of the first feature array: batch t' of the block is batch 32 t + t' of the array. -/
theorem blk0_apply (c : Dev nD) (t : Fin cfg0.N) (t' : Fin 32) (k : Fin 256) (p : Fin 49) (h : 32 * t.val + t'.val < 2048) :
    blk0 m c t (ix3 t' k p) = feat0 m c (ix3 ⟨32 * t.val + t'.val, h⟩ k p) := by
  show iblk m c 0 t (ix3 t' k p) = _
  unfold iblk
  rw [View.read_apply]
  show V m c main_v0 _ = V m c main_v0 _
  congr 1
  funext a
  apply Fin.ext
  match a with
  | ⟨0, _⟩ => show win0_0.index t 0 * 32 + 1 * t'.val = 32 * t.val + t'.val; rw [(idx_facts t).1.1]; omega
  | ⟨1, _⟩ => show win0_0.index t 1 * 256 + 1 * k.val = k.val; rw [(idx_facts t).1.2.1]; omega
  | ⟨2, _⟩ => show win0_0.index t 2 * 49 + 1 * p.val = p.val; rw [(idx_facts t).1.2.2]; omega

/-- Block t of the second feature array. -/
theorem blk1_apply (c : Dev nD) (t : Fin cfg0.N) (t' : Fin 32) (k : Fin 256) (p : Fin 49) (h : 32 * t.val + t'.val < 2048) :
    blk1 m c t (ix3 t' k p) = feat1 m c (ix3 ⟨32 * t.val + t'.val, h⟩ k p) := by
  show iblk m c 1 t (ix3 t' k p) = _
  unfold iblk
  rw [View.read_apply]
  show V m c main_v1 _ = V m c main_v1 _
  congr 1
  funext a
  apply Fin.ext
  match a with
  | ⟨0, _⟩ => show win0_1.index t 0 * 32 + 1 * t'.val = 32 * t.val + t'.val; rw [(idx_facts t).2.1.1]; omega
  | ⟨1, _⟩ => show win0_1.index t 1 * 256 + 1 * k.val = k.val; rw [(idx_facts t).2.1.2.1]; omega
  | ⟨2, _⟩ => show win0_1.index t 2 * 49 + 1 * p.val = p.val; rw [(idx_facts t).2.1.2.2]; omega

/-- Block t of the mask. -/
theorem blk2_apply (c : Dev nD) (t : Fin cfg0.N) (t' : Fin 32) (p q : Fin 49) (h : 32 * t.val + t'.val < 2048) :
    blk2 m c t (ix3 t' p q) = mask m c (ix3 ⟨32 * t.val + t'.val, h⟩ p q) := by
  show iblk m c 2 t (ix3 t' p q) = _
  unfold iblk
  rw [View.read_apply]
  show V m c main_arg2 _ = V m c main_arg2 _
  congr 1
  funext a
  apply Fin.ext
  match a with
  | ⟨0, _⟩ => show win0_2.index t 0 * 32 + 1 * t'.val = 32 * t.val + t'.val; rw [(idx_facts t).2.2.1]; omega
  | ⟨1, _⟩ => show win0_2.index t 1 * 49 + 1 * p.val = p.val; rw [(idx_facts t).2.2.2.1]; omega
  | ⟨2, _⟩ => show win0_2.index t 2 * 49 + 1 * q.val = q.val; rw [(idx_facts t).2.2.2.2]; omega

/-! ## Per-batch terms, block sums, running sums -/

/-- Batch n's share of the numerator (0 past the last batch). -/
def rowNum (c : Dev nD) (n : ℕ) : EReal :=
  if h : n < 2048 then numRow (fun k p => feat0 m c (ix3 ⟨n, h⟩ k p)) (fun k q => feat1 m c (ix3 ⟨n, h⟩ k q))
    (fun p q => mask m c (ix3 ⟨n, h⟩ p q)) else 0

/-- Batch n's share of the denominator (0 past the last batch). -/
def rowDen (c : Dev nD) (n : ℕ) : EReal :=
  if h : n < 2048 then denRow (fun p q => mask m c (ix3 ⟨n, h⟩ p q)) else 0

/-- Block k's sums: its 32 batches. -/
def blkNum (c : Dev nD) (k : ℕ) : EReal := ∑ i ∈ Finset.range 32, rowNum m c (32 * k + i)
def blkDen (c : Dev nD) (k : ℕ) : EReal := ∑ i ∈ Finset.range 32, rowDen m c (32 * k + i)

/-- What an accumulator holds after point n: the block sums since the core's first step. -/
def accNum (c : Dev nD) (n : ℕ) : EReal := ∑ i ∈ Finset.range (n % 32 + 1), blkNum m c (32 * (n / 32) + i)
def accDen (c : Dev nD) (n : ℕ) : EReal := ∑ i ∈ Finset.range (n % 32 + 1), blkDen m c (32 * (n / 32) + i)

/-- The numerator's block payload at point t is block t's sum. -/
theorem blockNum_at (c : Dev nD) (t : Fin cfg0.N) (j : S1x1.Idx) :
    k0_pay8 (F := Ideal) (blk0 m c t) (blk1 m c t) (blk2 m c t) j = blkNum m c t.val := by
  rw [Payload.blockNum_eq]
  unfold blkNum
  rw [← Fin.sum_univ_eq_sum_range (fun i => rowNum m c (32 * t.val + i)) 32]
  refine Finset.sum_congr rfl fun t' _ => ?_
  have hN : cfg0.N = 64 := N_0
  have h : 32 * t.val + t'.val < 2048 := by have := t.isLt; have := t'.isLt; omega
  unfold rowNum
  rw [dif_pos h]
  have e0 : (fun (k : Fin 256) (p : Fin 49) => blk0 m c t (ix3 t' k p)) = fun k p => feat0 m c (ix3 ⟨32 * t.val + t'.val, h⟩ k p) :=
    funext fun k => funext fun p => blk0_apply m c t t' k p h
  have e1 : (fun (k : Fin 256) (q : Fin 49) => blk1 m c t (ix3 t' k q)) = fun k q => feat1 m c (ix3 ⟨32 * t.val + t'.val, h⟩ k q) :=
    funext fun k => funext fun q => blk1_apply m c t t' k q h
  have e2 : (fun (p q : Fin 49) => blk2 m c t (ix3 t' p q)) = fun p q => mask m c (ix3 ⟨32 * t.val + t'.val, h⟩ p q) :=
    funext fun p => funext fun q => blk2_apply m c t t' p q h
  rw [e0, e1, e2]

/-- The denominator's block count at point t is block t's count. -/
theorem blockDen_at (c : Dev nD) (t : Fin cfg0.N) :
    ∑ t' : Fin 32, denRow (fun p q => blk2 m c t (ix3 t' p q)) = blkDen m c t.val := by
  unfold blkDen
  rw [← Fin.sum_univ_eq_sum_range (fun i => rowDen m c (32 * t.val + i)) 32]
  refine Finset.sum_congr rfl fun t' _ => ?_
  have hN : cfg0.N = 64 := N_0
  have h : 32 * t.val + t'.val < 2048 := by have := t.isLt; have := t'.isLt; omega
  unfold rowDen
  rw [dif_pos h]
  have e2 : (fun (p q : Fin 49) => blk2 m c t (ix3 t' p q)) = fun p q => mask m c (ix3 ⟨32 * t.val + t'.val, h⟩ p q) :=
    funext fun p => funext fun q => blk2_apply m c t t' p q h
  rw [e2]

/-! ## One grid step -/

/-- A core's first step: each accumulator ends at the block's sum. -/
theorem step_first (c : Dev nD) (t : Fin cfg0.N) (h0 : t.val % 32 = 0) (h1 : ¬t.val % 32 = 31) :
    (outsAt0 (F := Ideal) m c t.val t.isLt).2.2.1 = (fun _ => blkNum m c t.val)
    ∧ (outsAt0 (F := Ideal) m c t.val t.isLt).2.2.2 = (fun _ => blkDen m c t.val) := by
  rw [outsAt0_A m c t h0 h1]
  dsimp only
  refine ⟨?_, ?_⟩
  · refine (Pieces.numAcc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h))
      (blk0 m c t) (blk1 m c t) (blk2 m c t)).trans ?_
    funext j
    rw [Payload.accNum_eq, Payload.zeroNum, zero_add]
    exact blockNum_at m c t _
  · refine (Pieces.denAcc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h))
      (blk0 m c t) (blk1 m c t) (blk2 m c t)).trans ?_
    funext j
    rw [Payload.blockDen_eq, Payload.zeroDen, zero_add]
    exact blockDen_at m c t

/-- A middle step: each accumulator ends at what the step before left plus the block's sum. -/
theorem step_mid (c : Dev nD) (t : Fin cfg0.N) (h0 : ¬t.val % 32 = 0) (h1 : ¬t.val % 32 = 31) :
    (outsAt0 (F := Ideal) m c t.val t.isLt).2.2.1 = (fun j => (outsAt0 (F := Ideal) m c (t.val - 1) (Nat.lt_of_le_of_lt (Nat.sub_le _ _) t.isLt)).2.2.1 j + blkNum m c t.val)
    ∧ (outsAt0 (F := Ideal) m c t.val t.isLt).2.2.2 = (fun j => (outsAt0 (F := Ideal) m c (t.val - 1) (Nat.lt_of_le_of_lt (Nat.sub_le _ _) t.isLt)).2.2.2 j + blkDen m c t.val) := by
  rw [outsAt0_B m c t h0 h1]
  dsimp only
  refine ⟨?_, ?_⟩
  · refine (Pieces.numAcc_mid (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h))
      (blk0 m c t) (blk1 m c t) (blk2 m c t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2).trans ?_
    funext j
    rw [Payload.accNum_eq]
    exact congrArg (_ + ·) (blockNum_at m c t _)
  · refine (Pieces.denAcc_mid (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h))
      (blk0 m c t) (blk1 m c t) (blk2 m c t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2).trans ?_
    funext j
    rw [Payload.blockDen_eq]
    exact congrArg (_ + ·) (blockDen_at m c t)

/-- A core's last step: the accumulators as at a middle step, and each output block is the finished accumulator's
    word at every position. -/
theorem step_last (c : Dev nD) (t : Fin cfg0.N) (h0 : ¬t.val % 32 = 0) (h1 : t.val % 32 = 31) :
    ((outsAt0 (F := Ideal) m c t.val t.isLt).2.2.1 = (fun j => (outsAt0 (F := Ideal) m c (t.val - 1) (Nat.lt_of_le_of_lt (Nat.sub_le _ _) t.isLt)).2.2.1 j + blkNum m c t.val)
    ∧ (outsAt0 (F := Ideal) m c t.val t.isLt).2.2.2 = (fun j => (outsAt0 (F := Ideal) m c (t.val - 1) (Nat.lt_of_le_of_lt (Nat.sub_le _ _) t.isLt)).2.2.2 j + blkDen m c t.val))
    ∧ ((outsAt0 (F := Ideal) m c t.val t.isLt).1 = (fun _ => (outsAt0 (F := Ideal) m c (t.val - 1) (Nat.lt_of_le_of_lt (Nat.sub_le _ _) t.isLt)).2.2.1 (ix2 (0 : Fin 1) (0 : Fin 1)) + blkNum m c t.val)
    ∧ (outsAt0 (F := Ideal) m c t.val t.isLt).2.1 = (fun _ => (outsAt0 (F := Ideal) m c (t.val - 1) (Nat.lt_of_le_of_lt (Nat.sub_le _ _) t.isLt)).2.2.2 (ix2 (0 : Fin 1) (0 : Fin 1)) + blkDen m c t.val)) := by
  rw [outsAt0_C m c t h0 h1]
  dsimp only
  refine ⟨⟨?_, ?_⟩, ?_, ?_⟩
  · refine (Pieces.numAcc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1)
      (blk0 m c t) (blk1 m c t) (blk2 m c t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2).trans ?_
    funext j
    rw [Payload.accNum_eq]
    exact congrArg (_ + ·) (blockNum_at m c t _)
  · refine (Pieces.denAcc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1)
      (blk0 m c t) (blk1 m c t) (blk2 m c t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2).trans ?_
    funext j
    rw [Payload.blockDen_eq]
    exact congrArg (_ + ·) (blockDen_at m c t)
  · refine (Pieces.numOut_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1)
      (blk0 m c t) (blk1 m c t) (blk2 m c t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2).trans ?_
    funext i
    rw [Payload.outNum_eq, Payload.accNum_eq]
    exact congrArg (_ + ·) (blockNum_at m c t _)
  · refine (Pieces.denOut_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1)
      (blk0 m c t) (blk1 m c t) (blk2 m c t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2).trans ?_
    funext i
    rw [Payload.outDen_eq, Payload.blockDen_eq]
    exact congrArg (_ + ·) (blockDen_at m c t)

/-! ## The running sums, step by step -/

/-- At a core's first step the running sum is the block's sum. -/
theorem accNum_first (c : Dev nD) (n : ℕ) (h0 : n % 32 = 0) : blkNum m c n = accNum m c n := by
  unfold accNum
  rw [h0, Nat.zero_add, Finset.sum_range_one, Nat.add_zero]
  exact congrArg (blkNum m c) (by omega)

/-- At any other step the running sum grows by the block's sum. -/
theorem accNum_succ (c : Dev nD) (n : ℕ) (h0 : ¬(n + 1) % 32 = 0) : accNum m c n + blkNum m c (n + 1) = accNum m c (n + 1) := by
  unfold accNum
  have e1 : (n + 1) % 32 = n % 32 + 1 := by omega
  have e2 : (n + 1) / 32 = n / 32 := by omega
  rw [e1, e2, Finset.sum_range_succ _ (n % 32 + 1)]
  exact congrArg (_ + ·) (congrArg (blkNum m c) (by omega))

/-- At a core's first step the running sum is the block's sum. -/
theorem accDen_first (c : Dev nD) (n : ℕ) (h0 : n % 32 = 0) : blkDen m c n = accDen m c n := by
  unfold accDen
  rw [h0, Nat.zero_add, Finset.sum_range_one, Nat.add_zero]
  exact congrArg (blkDen m c) (by omega)

/-- At any other step the running sum grows by the block's sum. -/
theorem accDen_succ (c : Dev nD) (n : ℕ) (h0 : ¬(n + 1) % 32 = 0) : accDen m c n + blkDen m c (n + 1) = accDen m c (n + 1) := by
  unfold accDen
  have e1 : (n + 1) % 32 = n % 32 + 1 := by omega
  have e2 : (n + 1) / 32 = n / 32 := by omega
  rw [e1, e2, Finset.sum_range_succ _ (n % 32 + 1)]
  exact congrArg (_ + ·) (congrArg (blkDen m c) (by omega))

/-! ## The accumulators after every point -/

/-- After point n each accumulator holds the running sum: by induction on the point. -/
theorem scratch_eq (c : Dev nD) : ∀ (n : ℕ) (h : n < cfg0.N),
    (outsAt0 (F := Ideal) m c n h).2.2.1 = (fun _ => accNum m c n)
    ∧ (outsAt0 (F := Ideal) m c n h).2.2.2 = (fun _ => accDen m c n)
  | 0, h => by
    obtain ⟨hn, hd⟩ := step_first m c ⟨0, h⟩ (Nat.zero_mod 32) (by show ¬(0 % 32 = 31); decide)
    exact ⟨hn.trans (funext fun _ => accNum_first m c 0 rfl), hd.trans (funext fun _ => accDen_first m c 0 rfl)⟩
  | n + 1, h => by
    have ih := scratch_eq c n (Nat.lt_of_succ_lt h)
    by_cases h0 : (n + 1) % 32 = 0
    · have h1 : ¬(n + 1) % 32 = 31 := by omega
      obtain ⟨hn, hd⟩ := step_first m c ⟨n + 1, h⟩ h0 h1
      exact ⟨hn.trans (funext fun _ => accNum_first m c (n + 1) h0), hd.trans (funext fun _ => accDen_first m c (n + 1) h0)⟩
    · by_cases h1 : (n + 1) % 32 = 31
      · obtain ⟨⟨hn, hd⟩, _⟩ := step_last m c ⟨n + 1, h⟩ h0 h1
        exact ⟨hn.trans (funext fun j => (congrArg (· + blkNum m c (n + 1)) (congrFun ih.1 j)).trans (accNum_succ m c n h0)),
          hd.trans (funext fun j => (congrArg (· + blkDen m c (n + 1)) (congrFun ih.2 j)).trans (accDen_succ m c n h0))⟩
      · obtain ⟨hn, hd⟩ := step_mid m c ⟨n + 1, h⟩ h0 h1
        exact ⟨hn.trans (funext fun j => (congrArg (· + blkNum m c (n + 1)) (congrFun ih.1 j)).trans (accNum_succ m c n h0)),
          hd.trans (funext fun j => (congrArg (· + blkDen m c (n + 1)) (congrFun ih.2 j)).trans (accDen_succ m c n h0))⟩

/-- At a core's last step each output block holds the core's finished running sum at every position. -/
theorem out_last (c : Dev nD) (t : Fin cfg0.N) (h1 : t.val % 32 = 31) :
    (outsAt0 (F := Ideal) m c t.val t.isLt).1 = (fun _ => accNum m c t.val)
    ∧ (outsAt0 (F := Ideal) m c t.val t.isLt).2.1 = (fun _ => accDen m c t.val) := by
  have h0 : ¬t.val % 32 = 0 := by omega
  obtain ⟨_, hn, hd⟩ := step_last m c t h0 h1
  have hpos : t.val - 1 + 1 = t.val := by omega
  have ih := scratch_eq m c (t.val - 1) (Nat.lt_of_le_of_lt (Nat.sub_le _ _) t.isLt)
  have sN := accNum_succ m c (t.val - 1) (by rw [hpos]; exact h0)
  have sD := accDen_succ m c (t.val - 1) (by rw [hpos]; exact h0)
  rw [hpos] at sN sD
  exact ⟨hn.trans (funext fun _ => (congrArg (· + blkNum m c t.val) (congrFun ih.1 _)).trans sN),
    hd.trans (funext fun _ => (congrArg (· + blkDen m c t.val) (congrFun ih.2 _)).trans sD)⟩

/-! ## A core's finished sums, and the two cores together -/

/-- A core's finished numerator: its 32 blocks of 32 batches are its 1024 batches. -/
theorem accNum_core (c : Dev nD) (k : ℕ) : accNum m c (32 * k + 31) = ∑ b ∈ Finset.range 1024, rowNum m c (1024 * k + b) := by
  unfold accNum blkNum
  have e1 : (32 * k + 31) % 32 + 1 = 32 := by omega
  have e2 : (32 * k + 31) / 32 = k := by omega
  have runs := sum_range_runs (fun n => rowNum m c (1024 * k + n)) 32 32
  rw [show (32 * 32 : ℕ) = 1024 from rfl] at runs
  rw [e1, e2, ← runs]
  exact Finset.sum_congr rfl fun i _ => Finset.sum_congr rfl fun j _ => congrArg (rowNum m c) (by omega)

/-- A core's finished denominator. -/
theorem accDen_core (c : Dev nD) (k : ℕ) : accDen m c (32 * k + 31) = ∑ b ∈ Finset.range 1024, rowDen m c (1024 * k + b) := by
  unfold accDen blkDen
  have e1 : (32 * k + 31) % 32 + 1 = 32 := by omega
  have e2 : (32 * k + 31) / 32 = k := by omega
  have runs := sum_range_runs (fun n => rowDen m c (1024 * k + n)) 32 32
  rw [show (32 * 32 : ℕ) = 1024 from rfl] at runs
  rw [e1, e2, ← runs]
  exact Finset.sum_congr rfl fun i _ => Finset.sum_congr rfl fun j _ => congrArg (rowDen m c) (by omega)

/-- The two cores' numerators together are the specification's numerator: 2 runs of 1024 batches are the 2048. -/
theorem total_num (c : Dev nD) :
    accNum m c (32 * 0 + 31) + accNum m c (32 * 1 + 31) = num (feat0 m c) (feat1 m c) (mask m c) := by
  rw [accNum_core, accNum_core]
  have runs := sum_range_runs (rowNum m c) 2 1024
  rw [show (2 * 1024 : ℕ) = 2048 from rfl, Finset.sum_range_succ, Finset.sum_range_one] at runs
  rw [runs]
  unfold num
  rw [← Fin.sum_univ_eq_sum_range (rowNum m c) 2048]
  refine Finset.sum_congr rfl fun b _ => ?_
  unfold rowNum
  rw [dif_pos b.isLt]

/-- The two cores' denominators together are the specification's denominator. -/
theorem total_den (c : Dev nD) :
    accDen m c (32 * 0 + 31) + accDen m c (32 * 1 + 31) = den (mask m c) := by
  rw [accDen_core, accDen_core]
  have runs := sum_range_runs (rowDen m c) 2 1024
  rw [show (2 * 1024 : ℕ) = 2048 from rfl, Finset.sum_range_succ, Finset.sum_range_one] at runs
  rw [runs]
  unfold den
  rw [← Fin.sum_univ_eq_sum_range (rowDen m c) 2048]
  refine Finset.sum_congr rfl fun b _ => ?_
  unfold rowDen
  rw [dif_pos b.isLt]

/-! ## The arrays the region finds, from the program's arguments -/

/-- The first feature array the region finds is the host's reshape of the first argument. -/
theorem feat0_eq (c : Dev nD) :
    feat0 m c = shapeCast S2048x256x49 (m ((c : Thread nD τ).loc main_arg0)) shapeCasts_S2048x256x7x7_S2048x256x49 := by
  show StableHlo.after hostOps0 (fun b => m (c, b)) (Proc.devRef .tc main_v0) = _
  after_results
  rfl

/-- The second feature array the region finds is the host's reshape of the second argument. -/
theorem feat1_eq (c : Dev nD) :
    feat1 m c = shapeCast S2048x256x49 (m ((c : Thread nD τ).loc main_arg1)) shapeCasts_S2048x256x7x7_S2048x256x49 := by
  show StableHlo.after hostOps0 (fun b => m (c, b)) (Proc.devRef .tc main_v1) = _
  after_results
  rfl

/-- The mask the region finds is the third argument. -/
theorem mask_eq (c : Dev nD) : mask m c = m ((c : Thread nD τ).loc main_arg2) := V_main_arg2 m c

end Cert.KernelIdeal.Accum

end
-- ==== Proof.KTail.lean ====
import proofs.«117524_j6622839571360_1_alg».proof.KernelIdeal
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

/-!
  The last ten host operations of the kernel program, as one function of the two [2, 8, 128] arrays the kernel writes:
  of each array the entries at (0, 0, 0) and (1, 0, 0) are added, and the result is minus the quotient of the two sums.

  Each array is first cut to its corner [0:2, 0:1, 0:1], a [2, 1, 1] array whose entry (c, 0, 0) is the source's entry
  (c, 0, 0) (the offsets are all zero); reshaped to [2], whose entry c sits at the same row-major position as (c, 0, 0);
  and summed over its one axis from the zero word, which over the extended reals is 0 plus the two entries.
-/

noncomputable section

open scoped BigOperators

namespace Cert.KernelIdeal.Tail

open Cert.KernelIdeal Idealize.ShloMosaic Idealize.ShloMosaic.ValueIdx

variable {F : FTy → Type} [FloatOps F]

variable [Facts₀]
open Facts₀

/-- The ten operations after the kernel call, composed: slice, reshape and sum each array; divide; negate. -/
def tail (N D : FVec F S2x8x128 .f32) : FVec F S_ .f32 :=
  Host.negf (Host.divf
    (Host.reduceAdd (shapeCast S2 (extractStridedSlice S2x1x1 ![0, 0, 0] N slices_S2x8x128_S2x1x1_0_0_0) shapeCasts_S2x1x1_S2) (constant S_ .f32 0x00000000#32) reducesTo_S2_S_d0 h_S_)
    (Host.reduceAdd (shapeCast S2 (extractStridedSlice S2x1x1 ![0, 0, 0] D slices_S2x8x128_S2x1x1_0_0_0) shapeCasts_S2x1x1_S2) (constant S_ .f32 0x00000000#32) reducesTo_S2_S_d0 h_S_))

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ f (fun a => f (ix1 a))
    (fun i => congrArg f (eq_ix1 i))

/-- Entry `c` of the reshaped corner is the source's entry `(c, 0, 0)`. -/
theorem col_apply {α : Type} (X : S2x8x128.Idx → α) (c : S2.Idx) :
    shapeCast S2 (extractStridedSlice S2x1x1 ![0, 0, 0] X slices_S2x8x128_S2x1x1_0_0_0) shapeCasts_S2x1x1_S2 c
      = X (ix3 (n0 := 2) (n1 := 8) (n2 := 128) (c 0) 0 0) := by
  rw [shapeCast_apply _ shapeCasts_S2x1x1_S2 c (ix3 (n0 := 2) (n1 := 1) (n2 := 1) (c 0) 0 0)
    (by rw [Shape.rowMajor_val_three, Shape.rowMajor_val_one]
        show ((c 0).val * 1 + 0) * 1 + 0 = (c 0).val
        omega)]
  unfold extractStridedSlice
  refine congrArg X (funext fun a => Fin.ext ?_)
  match a with
  | ⟨0, _⟩ => show 0 + (c 0).val = (c 0).val; omega
  | ⟨1, _⟩ => rfl
  | ⟨2, _⟩ => rfl

/-- Over the extended reals the sum of a [2] array from the zero word is its two entries added. -/
theorem reduce2_apply (v : FVec Ideal S2 .f32) (i : S_.Idx) :
    Host.reduceAdd v (constant (F := Ideal) S_ .f32 0x00000000#32) reducesTo_S2_S_d0 h_S_ i
      = v (ix1 (n := 2) 0) + v (ix1 (n := 2) 1) := by
  simp only [Host.reduceAdd, Ideal.hostReduceAdd_def]
  rw [Ideal.hostReduceAdd_total reducesTo_S2_S_d0 (fun b => b.elim0), sum_idx1, Fin.sum_univ_two, constant_apply,
    Ideal.ofBits_zero_f32, zero_add]

theorem tail_apply (N D : FVec Ideal S2x8x128 .f32) (i : S_.Idx) :
    tail (F := Ideal) N D i
      = -(Ideal.div (N (ix3 (0 : Fin 2) (0 : Fin 8) (0 : Fin 128)) + N (ix3 (1 : Fin 2) (0 : Fin 8) (0 : Fin 128)))
                    (D (ix3 (0 : Fin 2) (0 : Fin 8) (0 : Fin 128)) + D (ix3 (1 : Fin 2) (0 : Fin 8) (0 : Fin 128)))) := by
  unfold tail
  show FloatOps.hostNegf (FloatOps.hostDivf (Host.reduceAdd _ _ reducesTo_S2_S_d0 h_S_ i) (Host.reduceAdd _ _ reducesTo_S2_S_d0 h_S_ i)) = _
  rw [reduce2_apply, reduce2_apply, col_apply, col_apply, col_apply, col_apply]
  simp only [Ideal.hostNegf_def, Ideal.negf_def, Ideal.hostDivf_def]

end Cert.KernelIdeal.Tail

end
-- ==== Proof.KFinal.lean ====
/-
  From the per-point outputs to the program's result.

  The two output arrays have shape [2, 8, 128], one [1, 8, 128] block per core, written back only at the core's last
  grid step (points 31 and 63). If at those points the two output blocks are constant — g(core) at every position —
  then each array ends constant on each of its two row blocks: point 32 r + 31 writes row block r, and the two points
  cover the array. The ten host operations that follow read entry (r, 0, 0) of each array, add the two cores' words,
  divide and negate: the result is -((g_N(0) + g_N(1)) / (g_D(0) + g_D(1))).
-/
import proofs.«117524_j6622839571360_1_alg».proof.Proof.Gen.KernelIdeal.Frame
import proofs.«117524_j6622839571360_1_alg».proof.Proof.KTail
import Idealize.ShloMosaic.Lib.Pipeline.Value
import Idealize.ShloMosaic.Lib.Pipeline.Frame
import Idealize.ShloMosaic.Lib.Pipeline.FrameSuffix
import Idealize.ShloMosaic.Lib.StableHlo.Run
import Idealize.ShloMosaic.Lib.Tactic
import Idealize.ShloMosaic.Lib.ValueIdx

set_option maxRecDepth 16384

noncomputable section

namespace Cert.KernelIdeal.Final

open Idealize.ShloMosaic Idealize.ShloMosaic.TcCoe Idealize.SL.Sem
open Idealize.ShloMosaic.Pipeline (Dat)
open Cert.KernelIdeal Cert.KernelIdeal.Gen Idealize.ShloMosaic.ValueIdx

variable (m : (ℓ : Loc nD τ sig) → Buf (Elt Ideal) ℓ) (ρ : Dev nD → PrngReg)

/-- An array of shape [2, 8, 128] that is constant on each of its two row blocks: entry (r, ·, ·) is `g r`. -/
abbrev rowConst (g : ℕ → EReal) : S2x8x128.Idx → EReal := fun j => g (j 0).val

/-- The same as contents of the first output array. -/
abbrev G3 (gN : Dev nD → ℕ → EReal) (c : Dev nD) : Buf (Elt Ideal) ((c.tc : Thread nD τ).loc main_v2_0) := rowConst (gN c)
/-- … and of the second. -/
abbrev G4 (gD : Dev nD → ℕ → EReal) (c : Dev nD) : Buf (Elt Ideal) ((c.tc : Thread nD τ).loc main_v2_1) := rowConst (gD c)

/-- The two output windows' block index at point `t` is (t / 32, 0, 0): decided over the 64 points. -/
theorem idx_facts3 : ∀ t : Fin cfg0.N, win0_3.index t (0 : Fin 3) = t.val / 32 ∧ win0_3.index t (1 : Fin 3) = 0 ∧ win0_3.index t (2 : Fin 3) = 0 :=
  (by decide +kernel : ∀ t : Fin grid0.N, _)
theorem idx_facts4 : ∀ t : Fin cfg0.N, win0_4.index t (0 : Fin 3) = t.val / 32 ∧ win0_4.index t (1 : Fin 3) = 0 ∧ win0_4.index t (2 : Fin 3) = 0 :=
  (by decide +kernel : ∀ t : Fin grid0.N, _)

/-- What a flushing point writes back into the first output array is its block of the row-constant array. -/
theorem flushed3_eq (gN : Dev nD → ℕ → EReal)
    (hN : ∀ (c : Dev nD) (t : Fin cfg0.N), t.val % 32 = 31 → (outsAt0 (F := Ideal) m c t.val t.isLt).1 = fun _ => gN c (t.val / 32))
    (c : Dev nD) (t : Fin cfg0.N) (hf : (cfg0.win 3).flush t = true) :
    (dats m 0 c).flushed 3 t = ((cfg0.win 3).blk t).view.read (Elt Ideal) (G3 gN c) := by
  have h31 : t.val % 32 = 31 := (flush0_3 t).mp hf
  show (cfg0.win 3).cut (grid0.coords t) ((dats m 0 c).after 3 t) = _
  rw [after0_3, hN c t h31]
  obtain ⟨e0, e1, e2⟩ := idx_facts3 t
  funext j
  rw [View.read_apply]
  show gN c (t.val / 32) = gN c ((((cfg0.win 3).blk t).view.emb j) 0).val
  refine congrArg (gN c) ?_
  show t.val / 32 = win0_3.index t (0 : Fin 3) * 1 + 1 * (j 0).val
  have hj : (j 0).val < 1 := (j 0).isLt
  omega

/-- The same for the second output array. -/
theorem flushed4_eq (gD : Dev nD → ℕ → EReal)
    (hD : ∀ (c : Dev nD) (t : Fin cfg0.N), t.val % 32 = 31 → (outsAt0 (F := Ideal) m c t.val t.isLt).2.1 = fun _ => gD c (t.val / 32))
    (c : Dev nD) (t : Fin cfg0.N) (hf : (cfg0.win 4).flush t = true) :
    (dats m 0 c).flushed 4 t = ((cfg0.win 4).blk t).view.read (Elt Ideal) (G4 gD c) := by
  have h31 : t.val % 32 = 31 := (flush0_4 t).mp hf
  show (cfg0.win 4).cut (grid0.coords t) ((dats m 0 c).after 4 t) = _
  rw [after0_4, hD c t h31]
  obtain ⟨e0, e1, e2⟩ := idx_facts4 t
  funext j
  rw [View.read_apply]
  show gD c (t.val / 32) = gD c ((((cfg0.win 4).blk t).view.emb j) 0).val
  refine congrArg (gD c) ?_
  show t.val / 32 = win0_4.index t (0 : Fin 3) * 1 + 1 * (j 0).val
  have hj : (j 0).val < 1 := (j 0).isLt
  omega

/-- The blocks are whole (never cut at the array's end): their extents are 1, 8, 128 at every point. -/
theorem xsize_facts3 : ∀ t : Fin cfg0.N, win0_3.xsize (grid0.coords t) (0 : Fin 3) = 1 ∧ win0_3.xsize (grid0.coords t) (1 : Fin 3) = 8 ∧ win0_3.xsize (grid0.coords t) (2 : Fin 3) = 128 :=
  (by decide +kernel : ∀ t : Fin grid0.N, _)
theorem xsize_facts4 : ∀ t : Fin cfg0.N, win0_4.xsize (grid0.coords t) (0 : Fin 3) = 1 ∧ win0_4.xsize (grid0.coords t) (1 : Fin 3) = 8 ∧ win0_4.xsize (grid0.coords t) (2 : Fin 3) = 128 :=
  (by decide +kernel : ∀ t : Fin grid0.N, _)

/-- An index of the array is in point `t`'s block iff each coordinate is in the block's range on its axis. -/
theorem mem_blk3 (t : Fin cfg0.N) (i : S2x8x128.Idx) :
    i ∈ ((cfg0.win 3).blk t).view.set ↔ ∀ a : Fin 3, win0_3.index t a * win0_3.size a ≤ (i a).val ∧ (i a).val < win0_3.index t a * win0_3.size a + win0_3.xsize (grid0.coords t) a := by
  show i ∈ ((View.whole main_v2_0).slice (win0_3.rect t)).set ↔ _
  rw [View.set_slice_whole, Rect.mem_set_unit]
  exact Iff.rfl

/-- Row block `r` of the array is written back at point `32 r + 31`, the last step of core `r`. -/
theorem cover3 (i : S2x8x128.Idx) : ∃ t : Fin cfg0.N, (cfg0.win 3).flush t = true ∧ i ∈ ((cfg0.win 3).blk t).view.set := by
  have hN : grid0.N = 64 := N_0
  have h0 : (i 0).val < 2 := (i 0).isLt
  have h1 : (i 1).val < 8 := (i 1).isLt
  have h2 : (i 2).val < 128 := (i 2).isLt
  have ht : 32 * (i 0).val + 31 < cfg0.N := by show _ < grid0.N; omega
  refine ⟨⟨32 * (i 0).val + 31, ht⟩, (flush0_3 _).mpr (by show (32 * (i 0).val + 31) % 32 = 31; omega), ?_⟩
  obtain ⟨e0, e1, e2⟩ := idx_facts3 ⟨32 * (i 0).val + 31, ht⟩
  obtain ⟨x0, x1, x2⟩ := xsize_facts3 ⟨32 * (i 0).val + 31, ht⟩
  have e0' : win0_3.index ⟨32 * (i 0).val + 31, ht⟩ (0 : Fin 3) = (i 0).val := by
    rw [e0]; show (32 * (i 0).val + 31) / 32 = _; omega
  rw [mem_blk3]
  intro a
  match a with
  | ⟨0, _⟩ =>
    show win0_3.index ⟨32 * (i 0).val + 31, ht⟩ (0 : Fin 3) * 1 ≤ (i 0).val ∧ (i 0).val < win0_3.index ⟨32 * (i 0).val + 31, ht⟩ (0 : Fin 3) * 1 + win0_3.xsize (grid0.coords ⟨32 * (i 0).val + 31, ht⟩) (0 : Fin 3)
    rw [e0', x0]; omega
  | ⟨1, _⟩ =>
    show win0_3.index ⟨32 * (i 0).val + 31, ht⟩ (1 : Fin 3) * 8 ≤ (i 1).val ∧ (i 1).val < win0_3.index ⟨32 * (i 0).val + 31, ht⟩ (1 : Fin 3) * 8 + win0_3.xsize (grid0.coords ⟨32 * (i 0).val + 31, ht⟩) (1 : Fin 3)
    rw [e1, x1]; omega
  | ⟨2, _⟩ =>
    show win0_3.index ⟨32 * (i 0).val + 31, ht⟩ (2 : Fin 3) * 128 ≤ (i 2).val ∧ (i 2).val < win0_3.index ⟨32 * (i 0).val + 31, ht⟩ (2 : Fin 3) * 128 + win0_3.xsize (grid0.coords ⟨32 * (i 0).val + 31, ht⟩) (2 : Fin 3)
    rw [e2, x2]; omega

/-- An index of the array is in point `t`'s block iff each coordinate is in the block's range on its axis. -/
theorem mem_blk4 (t : Fin cfg0.N) (i : S2x8x128.Idx) :
    i ∈ ((cfg0.win 4).blk t).view.set ↔ ∀ a : Fin 3, win0_4.index t a * win0_4.size a ≤ (i a).val ∧ (i a).val < win0_4.index t a * win0_4.size a + win0_4.xsize (grid0.coords t) a := by
  show i ∈ ((View.whole main_v2_1).slice (win0_4.rect t)).set ↔ _
  rw [View.set_slice_whole, Rect.mem_set_unit]
  exact Iff.rfl

/-- Row block `r` of the array is written back at point `32 r + 31`, the last step of core `r`. -/
theorem cover4 (i : S2x8x128.Idx) : ∃ t : Fin cfg0.N, (cfg0.win 4).flush t = true ∧ i ∈ ((cfg0.win 4).blk t).view.set := by
  have hN : grid0.N = 64 := N_0
  have h0 : (i 0).val < 2 := (i 0).isLt
  have h1 : (i 1).val < 8 := (i 1).isLt
  have h2 : (i 2).val < 128 := (i 2).isLt
  have ht : 32 * (i 0).val + 31 < cfg0.N := by show _ < grid0.N; omega
  refine ⟨⟨32 * (i 0).val + 31, ht⟩, (flush0_4 _).mpr (by show (32 * (i 0).val + 31) % 32 = 31; omega), ?_⟩
  obtain ⟨e0, e1, e2⟩ := idx_facts4 ⟨32 * (i 0).val + 31, ht⟩
  obtain ⟨x0, x1, x2⟩ := xsize_facts4 ⟨32 * (i 0).val + 31, ht⟩
  have e0' : win0_4.index ⟨32 * (i 0).val + 31, ht⟩ (0 : Fin 3) = (i 0).val := by
    rw [e0]; show (32 * (i 0).val + 31) / 32 = _; omega
  rw [mem_blk4]
  intro a
  match a with
  | ⟨0, _⟩ =>
    show win0_4.index ⟨32 * (i 0).val + 31, ht⟩ (0 : Fin 3) * 1 ≤ (i 0).val ∧ (i 0).val < win0_4.index ⟨32 * (i 0).val + 31, ht⟩ (0 : Fin 3) * 1 + win0_4.xsize (grid0.coords ⟨32 * (i 0).val + 31, ht⟩) (0 : Fin 3)
    rw [e0', x0]; omega
  | ⟨1, _⟩ =>
    show win0_4.index ⟨32 * (i 0).val + 31, ht⟩ (1 : Fin 3) * 8 ≤ (i 1).val ∧ (i 1).val < win0_4.index ⟨32 * (i 0).val + 31, ht⟩ (1 : Fin 3) * 8 + win0_4.xsize (grid0.coords ⟨32 * (i 0).val + 31, ht⟩) (1 : Fin 3)
    rw [e1, x1]; omega
  | ⟨2, _⟩ =>
    show win0_4.index ⟨32 * (i 0).val + 31, ht⟩ (2 : Fin 3) * 128 ≤ (i 2).val ∧ (i 2).val < win0_4.index ⟨32 * (i 0).val + 31, ht⟩ (2 : Fin 3) * 128 + win0_4.xsize (grid0.coords ⟨32 * (i 0).val + 31, ht⟩) (2 : Fin 3)
    rw [e2, x2]; omega

/-- So the first output array ends row-constant … -/
theorem final3 (gN : Dev nD → ℕ → EReal)
    (hN : ∀ (c : Dev nD) (t : Fin cfg0.N), t.val % 32 = 31 → (outsAt0 (F := Ideal) m c t.val t.isLt).1 = fun _ => gN c (t.val / 32))
    (c : Dev nD) : (dats m 0 c).arrAt 3 cfg0.N = G3 gN c :=
  (dats m 0 c).arrAt_eq_of_cover 3 (G3 gN c) (flushed3_eq m gN hN c) cover3

/-- … and the second. -/
theorem final4 (gD : Dev nD → ℕ → EReal)
    (hD : ∀ (c : Dev nD) (t : Fin cfg0.N), t.val % 32 = 31 → (outsAt0 (F := Ideal) m c t.val t.isLt).2.1 = fun _ => gD c (t.val / 32))
    (c : Dev nD) : (dats m 0 c).arrAt 4 cfg0.N = G4 gD c :=
  (dats m 0 c).arrAt_eq_of_cover 4 (G4 gD c) (flushed4_eq m gD hD c) cover4

/-- The result buffer after the host operations that follow the kernel call: minus the quotient of the two cores' sums. -/
theorem tail_main_v10 (gN gD : Dev nD → ℕ → EReal)
    (hN : ∀ (c : Dev nD) (t : Fin cfg0.N), t.val % 32 = 31 → (outsAt0 (F := Ideal) m c t.val t.isLt).1 = fun _ => gN c (t.val / 32))
    (hD : ∀ (c : Dev nD) (t : Fin cfg0.N), t.val % 32 = 31 → (outsAt0 (F := Ideal) m c t.val t.isLt).2.1 = fun _ => gD c (t.val / 32))
    (c : Dev nD) :
    Pipeline.afterTail₀ cfgs (dats m) 0 (V0 m) [hostOps1] c main_v10 = fun _ => -(Ideal.div (gN c 0 + gN c 1) (gD c 0 + gD c 1)) := by
  have e3 : Pipeline.withArrays (cfgs 0).spec c (V0 m c) (fun w => (dats m 0 c).arrAt w (cfgs 0).N) (Proc.devRef .tc main_v2_0) = G3 gN c :=
    (Pipeline.withArrays_arr spec0 launch0.win.arr_inj c _ _ 3).trans (final3 m gN hN c)
  have e4 : Pipeline.withArrays (cfgs 0).spec c (V0 m c) (fun w => (dats m 0 c).arrAt w (cfgs 0).N) (Proc.devRef .tc main_v2_1) = G4 gD c :=
    (Pipeline.withArrays_arr spec0 launch0.win.arr_inj c _ _ 4).trans (final4 m gD hD c)
  unfold Pipeline.afterTail₀
  show StableHlo.after hostOps1 _ (Proc.devRef .tc main_v10) = _
  after_results
  rw [e3, e4]
  show Tail.tail (F := Ideal) (rowConst (gN c)) (rowConst (gD c)) = _
  funext i
  rw [Tail.tail_apply]
  rfl

/-- The program's run: if at each core's last step the two output blocks are constant, the result is minus the quotient
    of the two cores' sums, and the three arguments are as launched. -/
theorem run_of (gN gD : Dev nD → ℕ → EReal)
    (hN : ∀ (c : Dev nD) (t : Fin cfg0.N), t.val % 32 = 31 → (outsAt0 (F := Ideal) m c t.val t.isLt).1 = fun _ => gN c (t.val / 32))
    (hD : ∀ (c : Dev nD) (t : Fin cfg0.N), t.val % 32 = 31 → (outsAt0 (F := Ideal) m c t.val t.isLt).2.1 = fun _ => gD c (t.val / 32)) :
    θ_run defs (onTc (τ := τ) (main (F := Ideal))) ⟨m, fun _ => 0, ρ⟩ fun r => ∀ c : Dev nD,
      r.2.mem ((c.tc : Thread nD τ).loc main_v10) = (fun _ => -(Ideal.div (gN c 0 + gN c 1) (gD c 0 + gD c 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans (tail_main_v10 m gN gD hN hD c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Final

end
-- ==== Proof.lean ====
/-
  The certificate: a kernel that averages masked cosine similarities, against its jnp reference, over the extended reals.

  Inputs: two feature arrays f32[2048, 256, 7, 7] (viewed [2048, 256, 49]: batch, channel, position) and an integer mask
  i32[2048, 49, 49]. For a batch b and positions p, q the similarity is
      c(b,p,q) = ( sum_k B[b,k,p] * M[b,k,q] ) / ( max(|B[b,.,p]|, e) * max(|M[b,.,q]|, e) ),     e the f32 nearest 1e-6,
  and the result is  -( sum over nonzero mask words of c ) / (number of nonzero mask words).

  The reference takes the numerator as one sum over all (b, p, q) and the denominator as an integer count converted to a
  float. The kernel walks a grid of 2 cores x 32 steps; at each step it holds 32 batches, sums its block over q, p and
  the 32 batches, and adds that to a one-word accumulator (reset at the core's first step, written out at its last); the
  host adds the two cores' words and divides. Over the extended reals addition is a commutative monoid, so every grouping
  of the 2048 * 49 * 49 terms gives the same sum; the count has fewer than 2^31 terms, so the integer sum does not wrap;
  the bf16 casts are the identity and the matrix product is the plain sum over the 256 channels. Both programs end
  at `Cert.MaskedCos.loss` of the same three arrays.

  frame_Kernel, frame_KernelIdeal: the generated frames. frame_ReferenceIdeal: the reference's generated run with its
  result dropped. preserves: the idealization rewrote nothing. algebraic: the kernel's run (the accumulators followed
  across the grid, the two output arrays, the host's ten closing operations) and the reference's run, both at `loss`.
-/
import proofs.«117524_j6622839571360_1_alg».proof.Defs
import proofs.«117524_j6622839571360_1_alg».proof.Proof.Gen.Kernel
import proofs.«117524_j6622839571360_1_alg».proof.Proof.Gen.Kernel.Frame
import proofs.«117524_j6622839571360_1_alg».proof.Proof.Gen.KernelIdeal
import proofs.«117524_j6622839571360_1_alg».proof.Proof.Gen.KernelIdeal.Frame
import proofs.«117524_j6622839571360_1_alg».proof.Proof.Gen.ReferenceIdeal
import proofs.«117524_j6622839571360_1_alg».proof.Proof.Gen.ReferenceIdeal.Run
import proofs.«117524_j6622839571360_1_alg».proof.Proof.Gen.ReferenceIdeal.Read
import proofs.«117524_j6622839571360_1_alg».proof.Proof.Gen.Pre_finite_inputs
import proofs.«117524_j6622839571360_1_alg».proof.Proof.Spec
import proofs.«117524_j6622839571360_1_alg».proof.Proof.RefSide
import proofs.«117524_j6622839571360_1_alg».proof.Proof.KAccum
import proofs.«117524_j6622839571360_1_alg».proof.Proof.KFinal
import Idealize.ShloMosaic.Adequacy
import Idealize.ShloMosaic.Init

noncomputable section

namespace Cert.Proof

open Idealize.ShloMosaic Idealize.ShloMosaic.TcCoe Idealize.SL.Sem

/-! ## The kernel's run, with its result named -/

section KernelRun

open Cert.KernelIdeal Cert.KernelIdeal.Gen Cert.KernelIdeal.Accum

/-- Every weakly fair execution of the idealized kernel program ends with its result at `loss` of the two reshaped
    feature arguments and the mask argument, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread nD τ).loc main_v10) = (fun _ => Cert.MaskedCos.loss (feat0 m c) (feat1 m c) (mask m c))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) := by
  have hN : ∀ (c : Dev nD) (t : Fin cfg0.N), t.val % 32 = 31 →
      (outsAt0 (F := Ideal) m c t.val t.isLt).1 = fun _ => accNum m c (32 * (t.val / 32) + 31) := fun c t h1 =>
    (out_last m c t h1).1.trans (funext fun _ => congrArg (accNum m c) (by omega))
  have hD : ∀ (c : Dev nD) (t : Fin cfg0.N), t.val % 32 = 31 →
      (outsAt0 (F := Ideal) m c t.val t.isLt).2.1 = fun _ => accDen m c (32 * (t.val / 32) + 31) := fun c t h1 =>
    (out_last m c t h1).2.trans (funext fun _ => congrArg (accDen m c) (by omega))
  refine (θ_run _ _ _).mono (fun _ h c => ⟨(h c).1.trans ?_, (h c).2⟩)
    (Cert.KernelIdeal.Final.run_of m ρ (fun c k => accNum m c (32 * k + 31)) (fun c k => accDen m c (32 * k + 31)) hN hD)
  funext _
  show -(Ideal.div (accNum m c (32 * 0 + 31) + accNum m c (32 * 1 + 31)) (accDen m c (32 * 0 + 31) + accDen m c (32 * 1 + 31))) = _
  rw [total_num, total_den]
  rfl

end KernelRun

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments both programs end at `loss` of the same arrays: the kernel by
    `kernel_run`, the reference by its generated run read one operation at a time. -/
theorem algebraic : Cert.algebraic_KernelIdeal_ReferenceIdeal := by
  intro m ρ m' ρ' _ hagree
  refine ⟨fun c => fun _ => Cert.MaskedCos.loss (Cert.KernelIdeal.Accum.feat0 m c) (Cert.KernelIdeal.Accum.feat1 m c)
    (Cert.KernelIdeal.Accum.mask m c), kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq, (hagree c).1, (hagree c).2.1, (hagree c).2.2]
  dsimp only
  rw [Cert.KernelIdeal.Accum.feat0_eq, Cert.KernelIdeal.Accum.feat1_eq, Cert.KernelIdeal.Accum.mask_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
